-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x117 : Shape := ⟨2, ![128, 117]⟩
abbrev S117 : Shape := ⟨1, ![117]⟩
abbrev S117x42 : Shape := ⟨2, ![117, 42]⟩
abbrev S42 : Shape := ⟨1, ![42]⟩
abbrev S42x24 : Shape := ⟨2, ![42, 24]⟩
abbrev S24 : Shape := ⟨1, ![24]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x117 : S_.BroadcastsInDim S128x117 (![] : Fin 0 → Fin S128x117.rank)
  reducesTo_S128x117_S_d0_1 : S128x117.ReducesTo [0, 1] S_
  bcast_S_S117 : S_.BroadcastsInDim S117 (![] : Fin 0 → Fin S117.rank)
  reducesTo_S117_S_d0 : S117.ReducesTo [0] S_
  bcast_S_S117x42 : S_.BroadcastsInDim S117x42 (![] : Fin 0 → Fin S117x42.rank)
  reducesTo_S117x42_S_d0_1 : S117x42.ReducesTo [0, 1] S_
  bcast_S_S42 : S_.BroadcastsInDim S42 (![] : Fin 0 → Fin S42.rank)
  reducesTo_S42_S_d0 : S42.ReducesTo [0] S_
  bcast_S_S42x24 : S_.BroadcastsInDim S42x24 (![] : Fin 0 → Fin S42x24.rank)
  reducesTo_S42x24_S_d0_1 : S42x24.ReducesTo [0, 1] S_
  bcast_S_S24 : S_.BroadcastsInDim S24 (![] : Fin 0 → Fin S24.rank)
  reducesTo_S24_S_d0 : S24.ReducesTo [0] S_

variable [Facts]

def fn_part3 {F : FTy → Type} [FloatOps F] (main_arg12 : FVec F S42x24 .f32) (main_arg13 : FVec F S24 .f32) (main_v48 : IVec S_ 1) (main_v49 : FVec F S42x24 .f32) (main_v50 : FVec F S42x24 .f32) : IVec S_ 1 :=
  let main_v51 : IVec S42x24 1 := cmpf .olt main_v49 main_v50
  let main_c_19 : IVec S_ 1 := constantI S_ 1 1#1
  let main_v52 : IVec S_ 1 := (fun x v => Host.reduce IntOp.andi x v reducesTo_S42x24_S_d0_1 h_S_) main_v51 main_c_19
  let main_v53 : IVec S_ 1 := andi main_v48 main_v52
  let main_v54 : FVec F S42x24 .f32 := Host.absf main_arg12
  let main_cst_20 : FVec F S_ .f32 := constant S_ .f32 0x7F800000#32
  let main_v55 : FVec F S42x24 .f32 := broadcastInDim S42x24 ![] bcast_S_S42x24 main_cst_20
  let main_v56 : IVec S42x24 1 := cmpf .olt main_v54 main_v55
  let main_c_21 : IVec S_ 1 := constantI S_ 1 1#1
  let main_v57 : IVec S_ 1 := (fun x v => Host.reduce IntOp.andi x v reducesTo_S42x24_S_d0_1 h_S_) main_v56 main_c_21
  let main_v58 : IVec S_ 1 := andi main_v53 main_v57
  let main_v59 : FVec F S24 .f32 := Host.absf main_arg13
  let main_cst_22 : FVec F S_ .f32 := constant S_ .f32 0x7F800000#32
  let main_v60 : FVec F S24 .f32 := broadcastInDim S24 ![] bcast_S_S24 main_cst_22
  let main_v61 : IVec S24 1 := cmpf .olt main_v59 main_v60
  let main_c_23 : IVec S_ 1 := constantI S_ 1 1#1
  let main_v62 : IVec S_ 1 := (fun x v => Host.reduce IntOp.andi x v reducesTo_S24_S_d0 h_S_) main_v61 main_c_23
  let main_v63 : IVec S_ 1 := andi main_v58 main_v62
  main_v63

def fn_part2 {F : FTy → Type} [FloatOps F] (main_arg8 : FVec F S42x24 .f32) (main_arg9 : FVec F S42x24 .f32) (main_arg10 : FVec F S24 .f32) (main_arg11 : FVec F S42x24 .f32) (main_arg12 : FVec F S42x24 .f32) (main_arg13 : FVec F S24 .f32) (main_v33 : IVec S_ 1) : IVec S_ 1 :=
  let main_v34 : FVec F S42x24 .f32 := Host.absf main_arg8
  let main_cst_12 : FVec F S_ .f32 := constant S_ .f32 0x7F800000#32
  let main_v35 : FVec F S42x24 .f32 := broadcastInDim S42x24 ![] bcast_S_S42x24 main_cst_12
  let main_v36 : IVec S42x24 1 := cmpf .olt main_v34 main_v35
  let main_c_13 : IVec S_ 1 := constantI S_ 1 1#1
  let main_v37 : IVec S_ 1 := (fun x v => Host.reduce IntOp.andi x v reducesTo_S42x24_S_d0_1 h_S_) main_v36 main_c_13
  let main_v38 : IVec S_ 1 := andi main_v33 main_v37
  let main_v39 : FVec F S42x24 .f32 := Host.absf main_arg9
  let main_cst_14 : FVec F S_ .f32 := constant S_ .f32 0x7F800000#32
  let main_v40 : FVec F S42x24 .f32 := broadcastInDim S42x24 ![] bcast_S_S42x24 main_cst_14
  let main_v41 : IVec S42x24 1 := cmpf .olt main_v39 main_v40
  let main_c_15 : IVec S_ 1 := constantI S_ 1 1#1
  let main_v42 : IVec S_ 1 := (fun x v => Host.reduce IntOp.andi x v reducesTo_S42x24_S_d0_1 h_S_) main_v41 main_c_15
  let main_v43 : IVec S_ 1 := andi main_v38 main_v42
  let main_v44 : FVec F S24 .f32 := Host.absf main_arg10
  let main_cst_16 : FVec F S_ .f32 := constant S_ .f32 0x7F800000#32
  let main_v45 : FVec F S24 .f32 := broadcastInDim S24 ![] bcast_S_S24 main_cst_16
  let main_v46 : IVec S24 1 := cmpf .olt main_v44 main_v45
  let main_c_17 : IVec S_ 1 := constantI S_ 1 1#1
  let main_v47 : IVec S_ 1 := (fun x v => Host.reduce IntOp.andi x v reducesTo_S24_S_d0 h_S_) main_v46 main_c_17
  let main_v48 : IVec S_ 1 := andi main_v43 main_v47
  let main_v49 : FVec F S42x24 .f32 := Host.absf main_arg11
  let main_cst_18 : FVec F S_ .f32 := constant S_ .f32 0x7F800000#32
  let main_v50 : FVec F S42x24 .f32 := broadcastInDim S42x24 ![] bcast_S_S42x24 main_cst_18
  fn_part3 (F := F) main_arg12 main_arg13 main_v48 main_v49 main_v50

def fn_part1 {F : FTy → Type} [FloatOps F] (main_arg5 : FVec F S117x42 .f32) (main_arg6 : FVec F S117x42 .f32) (main_arg7 : FVec F S42 .f32) (main_arg8 : FVec F S42x24 .f32) (main_arg9 : FVec F S42x24 .f32) (main_arg10 : FVec F S24 .f32) (main_arg11 : FVec F S42x24 .f32) (main_arg12 : FVec F S42x24 .f32) (main_arg13 : FVec F S24 .f32) (main_v13 : IVec S_ 1) (main_v16 : IVec S117 1) : IVec S_ 1 :=
  let main_c_5 : IVec S_ 1 := constantI S_ 1 1#1
  let main_v17 : IVec S_ 1 := (fun x v => Host.reduce IntOp.andi x v reducesTo_S117_S_d0 h_S_) main_v16 main_c_5
  let main_v18 : IVec S_ 1 := andi main_v13 main_v17
  let main_v19 : FVec F S117x42 .f32 := Host.absf main_arg5
  let main_cst_6 : FVec F S_ .f32 := constant S_ .f32 0x7F800000#32
  let main_v20 : FVec F S117x42 .f32 := broadcastInDim S117x42 ![] bcast_S_S117x42 main_cst_6
  let main_v21 : IVec S117x42 1 := cmpf .olt main_v19 main_v20
  let main_c_7 : IVec S_ 1 := constantI S_ 1 1#1
  let main_v22 : IVec S_ 1 := (fun x v => Host.reduce IntOp.andi x v reducesTo_S117x42_S_d0_1 h_S_) main_v21 main_c_7
  let main_v23 : IVec S_ 1 := andi main_v18 main_v22
  let main_v24 : FVec F S117x42 .f32 := Host.absf main_arg6
  let main_cst_8 : FVec F S_ .f32 := constant S_ .f32 0x7F800000#32
  let main_v25 : FVec F S117x42 .f32 := broadcastInDim S117x42 ![] bcast_S_S117x42 main_cst_8
  let main_v26 : IVec S117x42 1 := cmpf .olt main_v24 main_v25
  let main_c_9 : IVec S_ 1 := constantI S_ 1 1#1
  let main_v27 : IVec S_ 1 := (fun x v => Host.reduce IntOp.andi x v reducesTo_S117x42_S_d0_1 h_S_) main_v26 main_c_9
  let main_v28 : IVec S_ 1 := andi main_v23 main_v27
  let main_v29 : FVec F S42 .f32 := Host.absf main_arg7
  let main_cst_10 : FVec F S_ .f32 := constant S_ .f32 0x7F800000#32
  let main_v30 : FVec F S42 .f32 := broadcastInDim S42 ![] bcast_S_S42 main_cst_10
  let main_v31 : IVec S42 1 := cmpf .olt main_v29 main_v30
  let main_c_11 : IVec S_ 1 := constantI S_ 1 1#1
  let main_v32 : IVec S_ 1 := (fun x v => Host.reduce IntOp.andi x v reducesTo_S42_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x117 .f32) (main_arg3 : FVec F S128x117 .f32) (main_arg4 : FVec F S117 .f32) (main_arg5 : FVec F S117x42 .f32) (main_arg6 : FVec F S117x42 .f32) (main_arg7 : FVec F S42 .f32) (main_arg8 : FVec F S42x24 .f32) (main_arg9 : FVec F S42x24 .f32) (main_arg10 : FVec F S24 .f32) (main_arg11 : FVec F S42x24 .f32) (main_arg12 : FVec F S42x24 .f32) (main_arg13 : FVec F S24 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x117 .f32 := Host.absf main_arg2
  let main_cst_0 : FVec F S_ .f32 := constant S_ .f32 0x7F800000#32
  let main_v5 : FVec F S128x117 .f32 := broadcastInDim S128x117 ![] bcast_S_S128x117 main_cst_0
  let main_v6 : IVec S128x117 1 := cmpf .olt main_v4 main_v5
  let main_c_1 : IVec S_ 1 := constantI S_ 1 1#1
  let main_v7 : IVec S_ 1 := (fun x v => Host.reduce IntOp.andi x v reducesTo_S128x117_S_d0_1 h_S_) main_v6 main_c_1
  let main_v8 : IVec S_ 1 := andi main_v3 main_v7
  let main_v9 : FVec F S128x117 .f32 := Host.absf main_arg3
  let main_cst_2 : FVec F S_ .f32 := constant S_ .f32 0x7F800000#32
  let main_v10 : FVec F S128x117 .f32 := broadcastInDim S128x117 ![] bcast_S_S128x117 main_cst_2
  let main_v11 : IVec S128x117 1 := cmpf .olt main_v9 main_v10
  let main_c_3 : IVec S_ 1 := constantI S_ 1 1#1
  let main_v12 : IVec S_ 1 := (fun x v => Host.reduce IntOp.andi x v reducesTo_S128x117_S_d0_1 h_S_) main_v11 main_c_3
  let main_v13 : IVec S_ 1 := andi main_v8 main_v12
  let main_v14 : FVec F S117 .f32 := Host.absf main_arg4
  let main_cst_4 : FVec F S_ .f32 := constant S_ .f32 0x7F800000#32
  let main_v15 : FVec F S117 .f32 := broadcastInDim S117 ![] bcast_S_S117 main_cst_4
  let main_v16 : IVec S117 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x117 : Shape := ⟨2, ![128, 117]⟩
abbrev S117 : Shape := ⟨1, ![117]⟩
abbrev S117x42 : Shape := ⟨2, ![117, 42]⟩
abbrev S42 : Shape := ⟨1, ![42]⟩
abbrev S42x24 : Shape := ⟨2, ![42, 24]⟩
abbrev S24 : Shape := ⟨1, ![24]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x117 : Shape := ⟨2, ![1, 117]⟩
abbrev S50000x117 : Shape := ⟨2, ![50000, 117]⟩
abbrev S5000x128 : Shape := ⟨2, ![5000, 128]⟩
abbrev S5000x1 : Shape := ⟨2, ![5000, 1]⟩
abbrev S5000x117 : Shape := ⟨2, ![5000, 117]⟩
abbrev S800000x117 : Shape := ⟨2, ![800000, 117]⟩
abbrev S1x42 : Shape := ⟨2, ![1, 42]⟩
abbrev S50000x42 : Shape := ⟨2, ![50000, 42]⟩
abbrev S5000x42 : Shape := ⟨2, ![5000, 42]⟩
abbrev S800000x42 : Shape := ⟨2, ![800000, 42]⟩
abbrev S1x24 : Shape := ⟨2, ![1, 24]⟩
abbrev S50000x24 : Shape := ⟨2, ![50000, 24]⟩
abbrev S5000x24 : Shape := ⟨2, ![5000, 24]⟩

abbrev nBuf : Space → Nat
  | .hbm => 71
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x117, .f32⟩
  | .hbm, ⟨3, _⟩ => ⟨S128x117, .f32⟩
  | .hbm, ⟨4, _⟩ => ⟨S117, .f32⟩
  | .hbm, ⟨5, _⟩ => ⟨S117x42, .f32⟩
  | .hbm, ⟨6, _⟩ => ⟨S117x42, .f32⟩
  | .hbm, ⟨7, _⟩ => ⟨S42, .f32⟩
  | .hbm, ⟨8, _⟩ => ⟨S42x24, .f32⟩
  | .hbm, ⟨9, _⟩ => ⟨S42x24, .f32⟩
  | .hbm, ⟨10, _⟩ => ⟨S24, .f32⟩
  | .hbm, ⟨11, _⟩ => ⟨S42x24, .f32⟩
  | .hbm, ⟨12, _⟩ => ⟨S42x24, .f32⟩
  | .hbm, ⟨13, _⟩ => ⟨S24, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000x1, .f32⟩
  | .hbm, ⟨20, _⟩ => ⟨S_, .f32⟩
  | .hbm, ⟨21, _⟩ => ⟨S50000x1, .f32⟩
  | .hbm, ⟨22, _⟩ => ⟨S800000x1, .i32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x117, .f32⟩
  | .hbm, ⟨38, _⟩ => ⟨S50000x117, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x117, .f32⟩
  | .hbm, ⟨48, _⟩ => ⟨S_, .f32⟩
  | .hbm, ⟨49, _⟩ => ⟨S50000x117, .f32⟩
  | .hbm, ⟨50, _⟩ => ⟨S800000x1, .i32⟩
  | .hbm, ⟨51, _⟩ => ⟨S50000x117, .f32⟩
  | .hbm, ⟨52, _⟩ => ⟨S1x42, .f32⟩
  | .hbm, ⟨53, _⟩ => ⟨S50000x42, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x42, .f32⟩
  | .hbm, ⟨63, _⟩ => ⟨S_, .f32⟩
  | .hbm, ⟨64, _⟩ => ⟨S50000x42, .f32⟩
  | .hbm, ⟨65, _⟩ => ⟨S800000x1, .i32⟩
  | .hbm, ⟨66, _⟩ => ⟨S50000x42, .f32⟩
  | .hbm, ⟨67, _⟩ => ⟨S1x24, .f32⟩
  | .hbm, ⟨68, _⟩ => ⟨S50000x24, .f32⟩
  | .hbm, ⟨69, _⟩ => ⟨S1x24, .f32⟩
  | .hbm, ⟨70, _⟩ => ⟨S50000x24, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x117, .f32⟩
  | .local _ .vmem, ⟨7, _⟩ => ⟨S128x117, .f32⟩
  | .local _ .vmem, ⟨8, _⟩ => ⟨S1x117, .f32⟩
  | .local _ .vmem, ⟨9, _⟩ => ⟨S5000x117, .f32⟩
  | .local _ .vmem, ⟨10, _⟩ => ⟨S5000x117, .f32⟩
  | .local _ .vmem, ⟨11, _⟩ => ⟨S5000x117, .f32⟩
  | .local _ .vmem, ⟨12, _⟩ => ⟨S5000x117, .f32⟩
  | .local _ .vmem, ⟨13, _⟩ => ⟨S5000x1, .f32⟩
  | .local _ .vmem, ⟨14, _⟩ => ⟨S5000x1, .f32⟩
  | .local _ .vmem, ⟨15, _⟩ => ⟨S5000x117, .f32⟩
  | .local _ .vmem, ⟨16, _⟩ => ⟨S5000x117, .f32⟩
  | .local _ .vmem, ⟨17, _⟩ => ⟨S117x42, .f32⟩
  | .local _ .vmem, ⟨18, _⟩ => ⟨S117x42, .f32⟩
  | .local _ .vmem, ⟨19, _⟩ => ⟨S1x42, .f32⟩
  | .local _ .vmem, ⟨20, _⟩ => ⟨S5000x42, .f32⟩
  | .local _ .vmem, ⟨21, _⟩ => ⟨S5000x42, .f32⟩
  | .local _ .vmem, ⟨22, _⟩ => ⟨S5000x42, .f32⟩
  | .local _ .vmem, ⟨23, _⟩ => ⟨S5000x42, .f32⟩
  | .local _ .vmem, ⟨24, _⟩ => ⟨S5000x1, .f32⟩
  | .local _ .vmem, ⟨25, _⟩ => ⟨S5000x1, .f32⟩
  | .local _ .vmem, ⟨26, _⟩ => ⟨S5000x42, .f32⟩
  | .local _ .vmem, ⟨27, _⟩ => ⟨S5000x42, .f32⟩
  | .local _ .vmem, ⟨28, _⟩ => ⟨S42x24, .f32⟩
  | .local _ .vmem, ⟨29, _⟩ => ⟨S42x24, .f32⟩
  | .local _ .vmem, ⟨30, _⟩ => ⟨S1x24, .f32⟩
  | .local _ .vmem, ⟨31, _⟩ => ⟨S5000x24, .f32⟩
  | .local _ .vmem, ⟨32, _⟩ => ⟨S5000x24, .f32⟩
  | .local _ .vmem, ⟨33, _⟩ => ⟨S5000x42, .f32⟩
  | .local _ .vmem, ⟨34, _⟩ => ⟨S5000x42, .f32⟩
  | .local _ .vmem, ⟨35, _⟩ => ⟨S5000x1, .f32⟩
  | .local _ .vmem, ⟨36, _⟩ => ⟨S5000x1, .f32⟩
  | .local _ .vmem, ⟨37, _⟩ => ⟨S5000x42, .f32⟩
  | .local _ .vmem, ⟨38, _⟩ => ⟨S5000x42, .f32⟩
  | .local _ .vmem, ⟨39, _⟩ => ⟨S42x24, .f32⟩
  | .local _ .vmem, ⟨40, _⟩ => ⟨S42x24, .f32⟩
  | .local _ .vmem, ⟨41, _⟩ => ⟨S1x24, .f32⟩
  | .local _ .vmem, ⟨42, _⟩ => ⟨S5000x24, .f32⟩
  | .local _ .vmem, ⟨43, _⟩ => ⟨S5000x24, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x117 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x117 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x117 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x117 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x117 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x117 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S117x42 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S117x42 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x42 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x42 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x42 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x42 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S42x24 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S42x24 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x24 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x24 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x42 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x42 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S42x24 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S42x24 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x24 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x24 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  shapeCasts_S117_S1x117 : S117.ShapeCasts S1x117
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x117_S128x117_0_0 : ∀ a, (![0, 0] : Fin 2 → Nat) a + S128x117.size a ≤ S128x117.size a
  h_S128x117 : 0 < S128x117.numel
  inb_S1x117_S1x117_0_0 : ∀ a, (![0, 0] : Fin 2 → Nat) a + S1x117.size a ≤ S1x117.size a
  h_S1x117 : 0 < S1x117.numel
  shapeCasts_S1x117_S1x117 : S1x117.ShapeCasts S1x117
  broadcasts_S1x117_S5000x117 : S1x117.Broadcasts S5000x117
  inb_S5000x117_S5000x117_0_0 : ∀ a, (![0, 0] : Fin 2 → Nat) a + S5000x117.size a ≤ S5000x117.size a
  h_S5000x117 : 0 < S5000x117.numel
  bcast_S_S50000x117 : S_.BroadcastsInDim S50000x117 (![] : Fin 0 → Fin S50000x117.rank)
  shapeCasts_S42_S1x42 : S42.ShapeCasts S1x42
  shapeCasts_S5000x117_S5000x117 : S5000x117.ShapeCasts S5000x117
  broadcasts_S5000x1_S5000x117 : S5000x1.Broadcasts S5000x117
  inb_S117x42_S117x42_0_0 : ∀ a, (![0, 0] : Fin 2 → Nat) a + S117x42.size a ≤ S117x42.size a
  h_S117x42 : 0 < S117x42.numel
  inb_S1x42_S1x42_0_0 : ∀ a, (![0, 0] : Fin 2 → Nat) a + S1x42.size a ≤ S1x42.size a
  h_S1x42 : 0 < S1x42.numel
  shapeCasts_S1x42_S1x42 : S1x42.ShapeCasts S1x42
  broadcasts_S1x42_S5000x42 : S1x42.Broadcasts S5000x42
  inb_S5000x42_S5000x42_0_0 : ∀ a, (![0, 0] : Fin 2 → Nat) a + S5000x42.size a ≤ S5000x42.size a
  h_S5000x42 : 0 < S5000x42.numel
  bcast_S_S50000x42 : S_.BroadcastsInDim S50000x42 (![] : Fin 0 → Fin S50000x42.rank)
  shapeCasts_S24_S1x24 : S24.ShapeCasts S1x24
  shapeCasts_S5000x42_S5000x42 : S5000x42.ShapeCasts S5000x42
  broadcasts_S5000x1_S5000x42 : S5000x1.Broadcasts S5000x42
  inb_S42x24_S42x24_0_0 : ∀ a, (![0, 0] : Fin 2 → Nat) a + S42x24.size a ≤ S42x24.size a
  h_S42x24 : 0 < S42x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S5000x24 : S1x24.Broadcasts S5000x24
  inb_S5000x24_S5000x24_0_0 : ∀ a, (![0, 0] : Fin 2 → Nat) a + S5000x24.size a ≤ S5000x24.size a
  h_S5000x24 : 0 < S5000x24.numel
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x117_S5000x117_1_0_0_1_n_n_wf : DotDims.WF S5000x128 S128x117 S5000x117 [1] [0] [0] [1] [] []
  gather_S50000x117_S800000x1_S800000x117_1_0_n_n_0_1_1117_wf : GatherDims.WF S50000x117 S800000x1 S800000x117 [1] [0] [] [0] [] 1 ![1, 117]
  scatter_S50000x117_S800000x1_S800000x117_1_0_0_1_wf : ScatterDims.WF S50000x117 S800000x1 S800000x117 [1] [0] [0] 1
  dot_S5000x117_S117x42_S5000x42_1_0_0_1_n_n_wf : DotDims.WF S5000x117 S117x42 S5000x42 [1] [0] [0] [1] [] []
  gather_S50000x42_S800000x1_S800000x42_1_0_n_n_0_1_142_wf : GatherDims.WF S50000x42 S800000x1 S800000x42 [1] [0] [] [0] [] 1 ![1, 42]
  scatter_S50000x42_S800000x1_S800000x42_1_0_0_1_wf : ScatterDims.WF S50000x42 S800000x1 S800000x42 [1] [0] [0] 1
  dot_S5000x42_S42x24_S5000x24_1_0_0_1_n_n_wf : DotDims.WF S5000x42 S42x24 S5000x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x117.size a ≤ S128x117.size a
  hwx0_3 : ∀ i : grid0.Coords, EltTy.bits .f32 = 32 ∨ (Rect.block (s := S128x117) S128x117.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x117.size a ≤ S128x117.size a
  hwx0_4 : ∀ i : grid0.Coords, EltTy.bits .f32 = 32 ∨ (Rect.block (s := S128x117) S128x117.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x117.size a ≤ S1x117.size a
  hwx0_5 : ∀ i : grid0.Coords, EltTy.bits .f32 = 32 ∨ (Rect.block (s := S1x117) S1x117.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x117.size a ≤ S50000x117.size a
  hwx0_6 : ∀ i : grid0.Coords, EltTy.bits .f32 = 32 ∨ (Rect.block (s := S50000x117) S5000x117.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x117.size a ≤ S50000x117.size a
  hwx1_0 : ∀ i : grid1.Coords, EltTy.bits .f32 = 32 ∨ (Rect.block (s := S50000x117) S5000x117.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x117.size a ≤ S50000x117.size a
  hwx1_2 : ∀ i : grid1.Coords, EltTy.bits .f32 = 32 ∨ (Rect.block (s := S50000x117) S5000x117.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S117x42.size a ≤ S117x42.size a
  hwx1_3 : ∀ i : grid1.Coords, EltTy.bits .f32 = 32 ∨ (Rect.block (s := S117x42) S117x42.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S117x42.size a ≤ S117x42.size a
  hwx1_4 : ∀ i : grid1.Coords, EltTy.bits .f32 = 32 ∨ (Rect.block (s := S117x42) S117x42.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x42.size a ≤ S1x42.size a
  hwx1_5 : ∀ i : grid1.Coords, EltTy.bits .f32 = 32 ∨ (Rect.block (s := S1x42) S1x42.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x42.size a ≤ S50000x42.size a
  hwx1_6 : ∀ i : grid1.Coords, EltTy.bits .f32 = 32 ∨ (Rect.block (s := S50000x42) S5000x42.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x42.size a ≤ S50000x42.size a
  hwx2_0 : ∀ i : grid2.Coords, EltTy.bits .f32 = 32 ∨ (Rect.block (s := S50000x42) S5000x42.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x42.size a ≤ S50000x42.size a
  hwx2_2 : ∀ i : grid2.Coords, EltTy.bits .f32 = 32 ∨ (Rect.block (s := S50000x42) S5000x42.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S42x24.size a ≤ S42x24.size a
  hwx2_3 : ∀ i : grid2.Coords, EltTy.bits .f32 = 32 ∨ (Rect.block (s := S42x24) S42x24.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S42x24.size a ≤ S42x24.size a
  hwx2_4 : ∀ i : grid2.Coords, EltTy.bits .f32 = 32 ∨ (Rect.block (s := S42x24) S42x24.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x24.size a ≤ S1x24.size a
  hwx2_5 : ∀ i : grid2.Coords, EltTy.bits .f32 = 32 ∨ (Rect.block (s := S1x24) S1x24.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x24.size a ≤ S50000x24.size a
  hwx2_6 : ∀ i : grid2.Coords, EltTy.bits .f32 = 32 ∨ (Rect.block (s := S50000x24) S5000x24.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x42.size a ≤ S50000x42.size a
  hwx3_0 : ∀ i : grid3.Coords, EltTy.bits .f32 = 32 ∨ (Rect.block (s := S50000x42) S5000x42.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x42.size a ≤ S50000x42.size a
  hwx3_2 : ∀ i : grid3.Coords, EltTy.bits .f32 = 32 ∨ (Rect.block (s := S50000x42) S5000x42.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S42x24.size a ≤ S42x24.size a
  hwx3_3 : ∀ i : grid3.Coords, EltTy.bits .f32 = 32 ∨ (Rect.block (s := S42x24) S42x24.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S42x24.size a ≤ S42x24.size a
  hwx3_4 : ∀ i : grid3.Coords, EltTy.bits .f32 = 32 ∨ (Rect.block (s := S42x24) S42x24.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x24.size a ≤ S1x24.size a
  hwx3_5 : ∀ i : grid3.Coords, EltTy.bits .f32 = 32 ∨ (Rect.block (s := S1x24) S1x24.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x24.size a ≤ S50000x24.size a
  hwx3_6 : ∀ i : grid3.Coords, EltTy.bits .f32 = 32 ∨ (Rect.block (s := S50000x24) S5000x24.size (cc3_transform_6 i) (hinb3_6 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x117_S5000x117_1_0_0_1_n_n : DotDims S5000x128 S128x117 S5000x117 where
  lhsContracting := [1]
  rhsContracting := [0]
  lhsNonContracting := [0]
  rhsNonContracting := [1]
  lhsBatch := []
  rhsBatch := []
  wf := dot_S5000x128_S128x117_S5000x117_1_0_0_1_n_n_wf
def gather_S50000x117_S800000x1_S800000x117_1_0_n_n_0_1_1117 : GatherDims S50000x117 S800000x1 S800000x117 where
  offsetDims := [1]
  collapsedSliceDims := [0]
  operandBatchingDims := []
  startIndicesBatchingDims := []
  startIndexMap := [0]
  indexVectorDim := 1
  sliceSizes := ![1, 117]
  wf := gather_S50000x117_S800000x1_S800000x117_1_0_n_n_0_1_1117_wf
def scatter_S50000x117_S800000x1_S800000x117_1_0_0_1 : ScatterDims S50000x117 S800000x1 S800000x117 where
  updateWindowDims := [1]
  insertedWindowDims := [0]
  scatterDimsToOperandDims := [0]
  indexVectorDim := 1
  wf := scatter_S50000x117_S800000x1_S800000x117_1_0_0_1_wf
def dot_S5000x117_S117x42_S5000x42_1_0_0_1_n_n : DotDims S5000x117 S117x42 S5000x42 where
  lhsContracting := [1]
  rhsContracting := [0]
  lhsNonContracting := [0]
  rhsNonContracting := [1]
  lhsBatch := []
  rhsBatch := []
  wf := dot_S5000x117_S117x42_S5000x42_1_0_0_1_n_n_wf
def gather_S50000x42_S800000x1_S800000x42_1_0_n_n_0_1_142 : GatherDims S50000x42 S800000x1 S800000x42 where
  offsetDims := [1]
  collapsedSliceDims := [0]
  operandBatchingDims := []
  startIndicesBatchingDims := []
  startIndexMap := [0]
  indexVectorDim := 1
  sliceSizes := ![1, 42]
  wf := gather_S50000x42_S800000x1_S800000x42_1_0_n_n_0_1_142_wf
def scatter_S50000x42_S800000x1_S800000x42_1_0_0_1 : ScatterDims S50000x42 S800000x1 S800000x42 where
  updateWindowDims := [1]
  insertedWindowDims := [0]
  scatterDimsToOperandDims := [0]
  indexVectorDim := 1
  wf := scatter_S50000x42_S800000x1_S800000x42_1_0_0_1_wf
def dot_S5000x42_S42x24_S5000x24_1_0_0_1_n_n : DotDims S5000x42 S42x24 S5000x24 where
  lhsContracting := [1]
  rhsContracting := [0]
  lhsNonContracting := [0]
  rhsNonContracting := [1]
  lhsBatch := []
  rhsBatch := []
  wf := dot_S5000x42_S42x24_S5000x24_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x117.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x117.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x117.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x117.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x117.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x117.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S117x42.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S117x42.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x42.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x42.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S5000x42.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x42.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S42x24.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S42x24.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x24.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S5000x24.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v41) S5000x42.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x42.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S42x24.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S42x24.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x24.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S5000x24.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x117 : Shape := ⟨2, ![128, 117]⟩
abbrev S117 : Shape := ⟨1, ![117]⟩
abbrev S117x42 : Shape := ⟨2, ![117, 42]⟩
abbrev S42 : Shape := ⟨1, ![42]⟩
abbrev S42x24 : Shape := ⟨2, ![42, 24]⟩
abbrev S24 : Shape := ⟨1, ![24]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x117 : Shape := ⟨2, ![50000, 117]⟩
abbrev S1x117 : Shape := ⟨2, ![1, 117]⟩
abbrev S800000x117 : Shape := ⟨2, ![800000, 117]⟩
abbrev S50000x42 : Shape := ⟨2, ![50000, 42]⟩
abbrev S1x42 : Shape := ⟨2, ![1, 42]⟩
abbrev S800000x42 : Shape := ⟨2, ![800000, 42]⟩
abbrev S50000x24 : Shape := ⟨2, ![50000, 24]⟩
abbrev S1x24 : Shape := ⟨2, ![1, 24]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x800000, .i32⟩
  | 2 => ⟨S128x117, .f32⟩
  | 3 => ⟨S128x117, .f32⟩
  | 4 => ⟨S117, .f32⟩
  | 5 => ⟨S117x42, .f32⟩
  | 6 => ⟨S117x42, .f32⟩
  | 7 => ⟨S42, .f32⟩
  | 8 => ⟨S42x24, .f32⟩
  | 9 => ⟨S42x24, .f32⟩
  | 10 => ⟨S24, .f32⟩
  | 11 => ⟨S42x24, .f32⟩
  | 12 => ⟨S42x24, .f32⟩
  | 13 => ⟨S24, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000x1, .f32⟩
  | 33 => ⟨S_, .f32⟩
  | 34 => ⟨S50000x1, .f32⟩
  | 35 => ⟨S800000x1, .i32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S50000x117, .f32⟩
  | 43 => ⟨S50000x117, .f32⟩
  | 44 => ⟨S50000x117, .f32⟩
  | 45 => ⟨S1x117, .f32⟩
  | 46 => ⟨S50000x117, .f32⟩
  | 47 => ⟨S50000x117, .f32⟩
  | 48 => ⟨S_, .f32⟩
  | 49 => ⟨S50000x117, .f32⟩
  | 50 => ⟨S50000x117, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x117, .f32⟩
  | 60 => ⟨S_, .f32⟩
  | 61 => ⟨S50000x117, .f32⟩
  | 62 => ⟨S800000x1, .i32⟩
  | 63 => ⟨S50000x117, .f32⟩
  | 64 => ⟨S_, .f32⟩
  | 65 => ⟨S800000x1, .f32⟩
  | 66 => ⟨S_, .f32⟩
  | 67 => ⟨S50000x1, .f32⟩
  | 68 => ⟨S800000x1, .i32⟩
  | 69 => ⟨S50000x1, .f32⟩
  | 70 => ⟨S_, .f32⟩
  | 71 => ⟨S50000x1, .f32⟩
  | 72 => ⟨S50000x1, .f32⟩
  | 73 => ⟨S50000x117, .f32⟩
  | 74 => ⟨S50000x117, .f32⟩
  | 75 => ⟨S50000x42, .f32⟩
  | 76 => ⟨S50000x42, .f32⟩
  | 77 => ⟨S50000x42, .f32⟩
  | 78 => ⟨S1x42, .f32⟩
  | 79 => ⟨S50000x42, .f32⟩
  | 80 => ⟨S50000x42, .f32⟩
  | 81 => ⟨S_, .f32⟩
  | 82 => ⟨S50000x42, .f32⟩
  | 83 => ⟨S50000x42, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x42, .f32⟩
  | 93 => ⟨S_, .f32⟩
  | 94 => ⟨S50000x42, .f32⟩
  | 95 => ⟨S800000x1, .i32⟩
  | 96 => ⟨S50000x42, .f32⟩
  | 97 => ⟨S_, .f32⟩
  | 98 => ⟨S800000x1, .f32⟩
  | 99 => ⟨S_, .f32⟩
  | 100 => ⟨S50000x1, .f32⟩
  | 101 => ⟨S800000x1, .i32⟩
  | 102 => ⟨S50000x1, .f32⟩
  | 103 => ⟨S_, .f32⟩
  | 104 => ⟨S50000x1, .f32⟩
  | 105 => ⟨S50000x1, .f32⟩
  | 106 => ⟨S50000x42, .f32⟩
  | 107 => ⟨S50000x42, .f32⟩
  | 108 => ⟨S50000x24, .f32⟩
  | 109 => ⟨S50000x24, .f32⟩
  | 110 => ⟨S50000x24, .f32⟩
  | 111 => ⟨S1x24, .f32⟩
  | 112 => ⟨S50000x24, .f32⟩
  | 113 => ⟨S50000x24, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x42, .f32⟩
  | 123 => ⟨S_, .f32⟩
  | 124 => ⟨S50000x42, .f32⟩
  | 125 => ⟨S800000x1, .i32⟩
  | 126 => ⟨S50000x42, .f32⟩
  | 127 => ⟨S_, .f32⟩
  | _ => ⟨S50000x128, .f32⟩

abbrev hbmTy0_1 (i : Nat) : BufTy := match i % 128 with
  | 0 => ⟨S800000x1, .f32⟩
  | 1 => ⟨S_, .f32⟩
  | 2 => ⟨S50000x1, .f32⟩
  | 3 => ⟨S800000x1, .i32⟩
  | 4 => ⟨S50000x1, .f32⟩
  | 5 => ⟨S_, .f32⟩
  | 6 => ⟨S50000x1, .f32⟩
  | 7 => ⟨S50000x1, .f32⟩
  | 8 => ⟨S50000x42, .f32⟩
  | 9 => ⟨S50000x42, .f32⟩
  | 10 => ⟨S50000x24, .f32⟩
  | 11 => ⟨S50000x24, .f32⟩
  | 12 => ⟨S50000x24, .f32⟩
  | 13 => ⟨S1x24, .f32⟩
  | 14 => ⟨S50000x24, .f32⟩
  | 15 => ⟨S50000x24, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_cst : Ref sig .tc := ⟨.hbm, 81, rfl⟩
abbrev main_call1_v0 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_16 : Ref sig .tc := ⟨.hbm, 114, rfl⟩
abbrev main_v78 : Ref sig .tc := ⟨.hbm, 115, rfl⟩
abbrev main_v79 : Ref sig .tc := ⟨.hbm, 116, rfl⟩
abbrev main_c_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_cst_20 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_21 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S117_S1x117_1 : S117.BroadcastsInDim S1x117 (![1] : Fin 1 → Fin S1x117.rank)
  bcast_S1x117_S50000x117_0_1 : S1x117.BroadcastsInDim S50000x117 (![0, 1] : Fin 2 → Fin S50000x117.rank)
  bcast_S_S50000x117 : S_.BroadcastsInDim S50000x117 (![] : Fin 0 → Fin S50000x117.rank)
  bcast_S50000x1_S50000x117_0_1 : S50000x1.BroadcastsInDim S50000x117 (![0, 1] : Fin 2 → Fin S50000x117.rank)
  bcast_S42_S1x42_1 : S42.BroadcastsInDim S1x42 (![1] : Fin 1 → Fin S1x42.rank)
  bcast_S1x42_S50000x42_0_1 : S1x42.BroadcastsInDim S50000x42 (![0, 1] : Fin 2 → Fin S50000x42.rank)
  bcast_S_S50000x42 : S_.BroadcastsInDim S50000x42 (![] : Fin 0 → Fin S50000x42.rank)
  bcast_S50000x1_S50000x42_0_1 : S50000x1.BroadcastsInDim S50000x42 (![0, 1] : Fin 2 → Fin S50000x42.rank)
  bcast_S24_S1x24_1 : S24.BroadcastsInDim S1x24 (![1] : Fin 1 → Fin S1x24.rank)
  bcast_S1x24_S50000x24_0_1 : S1x24.BroadcastsInDim S50000x24 (![0, 1] : Fin 2 → Fin S50000x24.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x117_S50000x117_1_0_0_1_n_n_wf : DotDims.WF S50000x128 S128x117 S50000x117 [1] [0] [0] [1] [] []
  gather_S50000x117_S800000x1_S800000x117_1_0_n_n_0_1_1117_wf : GatherDims.WF S50000x117 S800000x1 S800000x117 [1] [0] [] [0] [] 1 ![1, 117]
  scatter_S50000x117_S800000x1_S800000x117_1_0_0_1_wf : ScatterDims.WF S50000x117 S800000x1 S800000x117 [1] [0] [0] 1
  dot_S50000x117_S117x42_S50000x42_1_0_0_1_n_n_wf : DotDims.WF S50000x117 S117x42 S50000x42 [1] [0] [0] [1] [] []
  gather_S50000x42_S800000x1_S800000x42_1_0_n_n_0_1_142_wf : GatherDims.WF S50000x42 S800000x1 S800000x42 [1] [0] [] [0] [] 1 ![1, 42]
  scatter_S50000x42_S800000x1_S800000x42_1_0_0_1_wf : ScatterDims.WF S50000x42 S800000x1 S800000x42 [1] [0] [0] 1
  dot_S50000x42_S42x24_S50000x24_1_0_0_1_n_n_wf : DotDims.WF S50000x42 S42x24 S50000x24 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x117_S50000x117_1_0_0_1_n_n : DotDims S50000x128 S128x117 S50000x117 where
  lhsContracting := [1]
  rhsContracting := [0]
  lhsNonContracting := [0]
  rhsNonContracting := [1]
  lhsBatch := []
  rhsBatch := []
  wf := dot_S50000x128_S128x117_S50000x117_1_0_0_1_n_n_wf
def gather_S50000x117_S800000x1_S800000x117_1_0_n_n_0_1_1117 : GatherDims S50000x117 S800000x1 S800000x117 where
  offsetDims := [1]
  collapsedSliceDims := [0]
  operandBatchingDims := []
  startIndicesBatchingDims := []
  startIndexMap := [0]
  indexVectorDim := 1
  sliceSizes := ![1, 117]
  wf := gather_S50000x117_S800000x1_S800000x117_1_0_n_n_0_1_1117_wf
def scatter_S50000x117_S800000x1_S800000x117_1_0_0_1 : ScatterDims S50000x117 S800000x1 S800000x117 where
  updateWindowDims := [1]
  insertedWindowDims := [0]
  scatterDimsToOperandDims := [0]
  indexVectorDim := 1
  wf := scatter_S50000x117_S800000x1_S800000x117_1_0_0_1_wf
def dot_S50000x117_S117x42_S50000x42_1_0_0_1_n_n : DotDims S50000x117 S117x42 S50000x42 where
  lhsContracting := [1]
  rhsContracting := [0]
  lhsNonContracting := [0]
  rhsNonContracting := [1]
  lhsBatch := []
  rhsBatch := []
  wf := dot_S50000x117_S117x42_S50000x42_1_0_0_1_n_n_wf
def gather_S50000x42_S800000x1_S800000x42_1_0_n_n_0_1_142 : GatherDims S50000x42 S800000x1 S800000x42 where
  offsetDims := [1]
  collapsedSliceDims := [0]
  operandBatchingDims := []
  startIndicesBatchingDims := []
  startIndexMap := [0]
  indexVectorDim := 1
  sliceSizes := ![1, 42]
  wf := gather_S50000x42_S800000x1_S800000x42_1_0_n_n_0_1_142_wf
def scatter_S50000x42_S800000x1_S800000x42_1_0_0_1 : ScatterDims S50000x42 S800000x1 S800000x42 where
  updateWindowDims := [1]
  insertedWindowDims := [0]
  scatterDimsToOperandDims := [0]
  indexVectorDim := 1
  wf := scatter_S50000x42_S800000x1_S800000x42_1_0_0_1_wf
def dot_S50000x42_S42x24_S50000x24_1_0_0_1_n_n : DotDims S50000x42 S42x24 S50000x24 where
  lhsContracting := [1]
  rhsContracting := [0]
  lhsNonContracting := [0]
  rhsNonContracting := [1]
  lhsBatch := []
  rhsBatch := []
  wf := dot_S50000x42_S42x24_S50000x24_1_0_0_1_n_n_wf

class Facts : Prop extends Facts₀ where

variable [Facts]
-- ==== Proof.SageCell.lean ====
/-
  One output entry of a mean-aggregating graph layer, as a function of the rows and columns it depends on.

  A node's new feature `q` is the sum over the input features `k` of (neighbour sum `a k` divided by the node's
  in-degree clipped below at one) times the neighbour weight `wl k`, plus the sum over `k` of the node's own
  feature `x k` times the self weight `wr k`, plus the bias. Both programs compute exactly this entry: the
  reference on whole arrays, the kernel on blocks of rows.
-/
import Idealize.ShloMosaic.PureOps.Ideal

noncomputable section

namespace Cert.Sage

open Idealize.ShloMosaic

/-- The affine part of one entry: `∑ₖ (a k / max d 1) · wl k + ∑ₖ x k · wr k + b` on the extended reals. -/
def sageLin (n : ℕ) (a : Fin n → EReal) (d : EReal) (x wl wr : Fin n → EReal) (b : EReal) : EReal :=
  (∑ k : Fin n, Ideal.div (a k) (max d (Ideal.ofBits .f32 0x3F800000#32)) * wl k) + (∑ k : Fin n, x k * wr k) + b

/-- The entry after the rectifier: the larger of the affine part and zero. -/
def sageRelu (n : ℕ) (a : Fin n → EReal) (d : EReal) (x wl wr : Fin n → EReal) (b : EReal) : EReal :=
  max (sageLin n a d x wl wr b) (Ideal.ofBits .f32 0x00000000#32)

end Cert.Sage

end
-- ==== Proof.Layer117.lean ====
/-
  The reference's layer 128 → 117 on all 50000 nodes, read entry by entry.

  `lin117` is the affine part as the reference writes it: divide the neighbour sums by the clipped in-degree
  (a column, broadcast along the features), two matrix products, the bias row broadcast down the nodes.
  Read at node `p` and feature `q` it is the entry `sageLin` of row `p` of the operands and column `q` of the
  weights.
-/
import proofs.«150746_j69475390980563_1_alg».proof.Proof.Gen.ReferenceIdeal
import proofs.«150746_j69475390980563_1_alg».proof.Proof.SageCell
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx Cert.ReferenceIdeal Cert.ReferenceIdeal.Gen

section Defs
variable {F : FTy → Type} [FloatOps F]

/-- The affine part of the layer on whole arrays: neighbour sums `A`, in-degrees `D`, own features `X`, the two
    weight matrices and the bias as a one-row array. -/
def lin117 (A : FVec F S50000x128 .f32) (D : FVec F S50000x1 .f32) (X : FVec F S50000x128 .f32)
    (Wl Wr : FVec F S128x117 .f32) (brow : FVec F S1x117 .f32) : FVec F S50000x117 .f32 :=
  addf (addf (Host.dotGeneral dot_S50000x128_S128x117_S50000x117_1_0_0_1_n_n none (Host.divf A (broadcastInDim S50000x128 ![0, 1] bcast_S50000x1_S50000x128_0_1 (maximumf D (broadcastInDim S50000x1 ![] bcast_S_S50000x1 (constant S_ .f32 0x3F800000#32))))) Wl) (Host.dotGeneral dot_S50000x128_S128x117_S50000x117_1_0_0_1_n_n none X Wr)) (broadcastInDim S50000x117 ![0, 1] bcast_S1x117_S50000x117_0_1 brow)

section Rectified
/-- The layer's result: the affine part rectified (entry by entry the larger of it and zero, `sageRelu`). -/
def out117 (A : FVec F S50000x128 .f32) (D : FVec F S50000x1 .f32) (X : FVec F S50000x128 .f32)
    (Wl Wr : FVec F S128x117 .f32) (brow : FVec F S1x117 .f32) : FVec F S50000x117 .f32 :=
  maximumf (lin117 A D X Wl Wr brow) (broadcastInDim S50000x117 ![] bcast_S_S50000x117 (constant S_ .f32 0x00000000#32))
end Rectified

end Defs

/-! ## The operand indices of the product at an output entry -/

theorem dot117_lhs0 (i : S50000x117.Idx) (c : dot_S50000x128_S128x117_S50000x117_1_0_0_1_n_n.contr.Idx) :
    (dot_S50000x128_S128x117_S50000x117_1_0_0_1_n_n.lhsIdx i c 0).val = (i 0).val := by
  unfold DotDims.lhsIdx
  rw [dif_neg (show ¬(0 : Fin S50000x128.rank) ∈ dot_S50000x128_S128x117_S50000x117_1_0_0_1_n_n.lhsBatch by decide), dif_pos (show (0 : Fin S50000x128.rank) ∈ dot_S50000x128_S128x117_S50000x117_1_0_0_1_n_n.lhsNonContracting by decide)]
  rfl
theorem dot117_lhs1 (i : S50000x117.Idx) (c : dot_S50000x128_S128x117_S50000x117_1_0_0_1_n_n.contr.Idx) :
    (dot_S50000x128_S128x117_S50000x117_1_0_0_1_n_n.lhsIdx i c 1).val = (c ⟨0, by decide⟩).val :=
  dot_S50000x128_S128x117_S50000x117_1_0_0_1_n_n.lhsIdx_val_of_single rfl i c
theorem dot117_rhs0 (i : S50000x117.Idx) (c : dot_S50000x128_S128x117_S50000x117_1_0_0_1_n_n.contr.Idx) :
    (dot_S50000x128_S128x117_S50000x117_1_0_0_1_n_n.rhsIdx i c 0).val = (c ⟨0, by decide⟩).val :=
  dot_S50000x128_S128x117_S50000x117_1_0_0_1_n_n.rhsIdx_val_of_single rfl i c
theorem dot117_rhs1 (i : S50000x117.Idx) (c : dot_S50000x128_S128x117_S50000x117_1_0_0_1_n_n.contr.Idx) :
    (dot_S50000x128_S128x117_S50000x117_1_0_0_1_n_n.rhsIdx i c 1).val = (i 1).val := by
  unfold DotDims.rhsIdx
  rw [dif_neg (show ¬(1 : Fin S128x117.rank) ∈ dot_S50000x128_S128x117_S50000x117_1_0_0_1_n_n.rhsBatch by decide), dif_pos (show (1 : Fin S128x117.rank) ∈ dot_S50000x128_S128x117_S50000x117_1_0_0_1_n_n.rhsNonContracting by decide)]
  rfl

/-- The host's matrix product at entry (p, q): the sum over the 128 shared features of row `p` times column `q`. -/
theorem dot117_at (L : FVec Ideal S50000x128 .f32) (R : FVec Ideal S128x117 .f32) (p : Fin 50000) (q : Fin 117) :
    Host.dotGeneral dot_S50000x128_S128x117_S50000x117_1_0_0_1_n_n none L R (ix2 p q) = ∑ k : Fin 128, L (ix2 p k) * R (ix2 k q) := by
  simp only [Host.dotGeneral]
  rw [Ideal.dotGeneral_apply, ← Equiv.sum_comp (contrEquiv1 dot_S50000x128_S128x117_S50000x117_1_0_0_1_n_n 128 rfl rfl).symm]
  refine Finset.sum_congr rfl fun k _ => ?_
  have hk := contrEquiv1_symm_val dot_S50000x128_S128x117_S50000x117_1_0_0_1_n_n 128 rfl rfl k
  have el : dot_S50000x128_S128x117_S50000x117_1_0_0_1_n_n.lhsIdx (ix2 p q) ((contrEquiv1 dot_S50000x128_S128x117_S50000x117_1_0_0_1_n_n 128 rfl rfl).symm k) = ix2 p k := funext fun a => Fin.ext (by
    match a with
    | ⟨0, _⟩ => exact dot117_lhs0 _ _
    | ⟨1, _⟩ => exact (dot117_lhs1 _ _).trans hk)
  have er : dot_S50000x128_S128x117_S50000x117_1_0_0_1_n_n.rhsIdx (ix2 p q) ((contrEquiv1 dot_S50000x128_S128x117_S50000x117_1_0_0_1_n_n 128 rfl rfl).symm k) = ix2 k q := funext fun a => Fin.ext (by
    match a with
    | ⟨0, _⟩ => exact (dot117_rhs0 _ _).trans hk
    | ⟨1, _⟩ => exact dot117_rhs1 _ _)
  rw [el, er]

/-! ## The broadcasts at an entry -/

/-- The clipped in-degree column, broadcast along the 128 features, read at (p, k): the column's entry at node `p`. -/
theorem degcol128_at (D : FVec Ideal S50000x1 .f32) (p : Fin 50000) (k : Fin 128) :
    broadcastInDim S50000x128 ![0, 1] bcast_S50000x1_S50000x128_0_1 (maximumf D (broadcastInDim S50000x1 ![] bcast_S_S50000x1 (constant S_ .f32 0x3F800000#32))) (ix2 p k)
      = max (D (ix2 p 0)) (Ideal.ofBits .f32 0x3F800000#32) := by
  generalize hy : maximumf D (broadcastInDim S50000x1 ![] bcast_S_S50000x1 (constant S_ .f32 0x3F800000#32)) = y
  rw [broadcastInDim_apply _ bcast_S50000x1_S50000x128_0_1 y (ix2 p k) (ix2 p 0) (fun a => match a with
    | ⟨0, _⟩ => by show p.val = if (50000 : Nat) = 1 then 0 else p.val; rw [if_neg (by decide)]
    | ⟨1, _⟩ => by show 0 = if (1 : Nat) = 1 then 0 else k.val; rw [if_pos rfl])]
  subst hy
  show max (D (ix2 p 0)) (broadcastInDim S50000x1 ![] bcast_S_S50000x1 (constant (F := Ideal) S_ .f32 0x3F800000#32) (ix2 p 0)) = _
  rw [broadcastInDim_apply _ bcast_S_S50000x1 (constant (F := Ideal) S_ .f32 0x3F800000#32) (ix2 p 0) ix0 (fun a => a.elim0)]
  rfl

/-- The bias row broadcast down the nodes, read at (p, q): the row's entry at feature `q`. -/
theorem biasrow117_at (brow : FVec Ideal S1x117 .f32) (p : Fin 50000) (q : Fin 117) :
    broadcastInDim S50000x117 ![0, 1] bcast_S1x117_S50000x117_0_1 brow (ix2 p q) = brow (ix2 0 q) :=
  broadcastInDim_apply _ bcast_S1x117_S50000x117_0_1 brow (ix2 p q) (ix2 0 q) (fun a => match a with
    | ⟨0, _⟩ => by show 0 = if (1 : Nat) = 1 then 0 else p.val; rw [if_pos rfl]
    | ⟨1, _⟩ => by show q.val = if (117 : Nat) = 1 then 0 else q.val; rw [if_neg (by decide)])

/-! ## The layer at an entry -/

theorem lin117_at (A : FVec Ideal S50000x128 .f32) (D : FVec Ideal S50000x1 .f32) (X : FVec Ideal S50000x128 .f32)
    (Wl Wr : FVec Ideal S128x117 .f32) (brow : FVec Ideal S1x117 .f32) (p : Fin 50000) (q : Fin 117) :
    lin117 A D X Wl Wr brow (ix2 p q)
      = sageLin 128 (fun k => A (ix2 p k)) (D (ix2 p 0)) (fun k => X (ix2 p k)) (fun k => Wl (ix2 k q)) (fun k => Wr (ix2 k q)) (brow (ix2 0 q)) := by
  unfold lin117 sageLin
  rw [addf_apply, addf_apply, dot117_at, dot117_at, biasrow117_at]
  refine congrArg₂ (· + ·) (congrArg₂ (· + ·) (Finset.sum_congr rfl fun k _ => ?_) rfl) rfl
  show Ideal.div (A (ix2 p k)) _ * Wl (ix2 k q) = _
  rw [degcol128_at D p k]

section Rectified
theorem out117_at (A : FVec Ideal S50000x128 .f32) (D : FVec Ideal S50000x1 .f32) (X : FVec Ideal S50000x128 .f32)
    (Wl Wr : FVec Ideal S128x117 .f32) (brow : FVec Ideal S1x117 .f32) (p : Fin 50000) (q : Fin 117) :
    out117 A D X Wl Wr brow (ix2 p q)
      = sageRelu 128 (fun k => A (ix2 p k)) (D (ix2 p 0)) (fun k => X (ix2 p k)) (fun k => Wl (ix2 k q)) (fun k => Wr (ix2 k q)) (brow (ix2 0 q)) := by
  unfold out117 sageRelu
  rw [maximumf_apply, lin117_at,
    broadcastInDim_apply _ bcast_S_S50000x117 (constant (F := Ideal) S_ .f32 0x00000000#32) (ix2 p q) ix0 (fun a => a.elim0)]
  rfl
end Rectified

end Cert.Sage

end
-- ==== Proof.Region0.lean ====
/-
  What the first kernel leaves in its result array: the reference's layer 128 → 117 of the arrays it is entered with.

  The kernel walks the 50000 nodes in ten blocks of 5000 rows. At a block it loads 5000 rows of the neighbour sums,
  of the in-degrees and of the features, the two whole weight matrices and the bias row, and stores 5000 result
  rows. Entry (p, q) of a stored block is the entry `sageRelu` of row `p` of the loaded rows and column `q` of the
  weights (`pay_at`); row `p` of block `t` is row `5000 t + p` of the arrays, so the stored block is block `t` of the
  reference's layer applied to the whole arrays (`flushed_eq`); the ten blocks tile the result (`covered`), so the
  result array ends holding that layer (`final`).
-/
import proofs.«150746_j69475390980563_1_alg».proof.Proof.Gen.KernelIdeal.Frame
import proofs.«150746_j69475390980563_1_alg».proof.Proof.Layer117
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Sage

theorem hz : (![0, 0] : Fin 2 → Nat) = fun _ => 0 := funext fun a => by fin_cases a <;> rfl

/-! ## The block product at an entry -/

theorem mm_lhs0 (i : S5000x117.Idx) (c : dot_S5000x128_S128x117_S5000x117_1_0_0_1_n_n.contr.Idx) :
    (dot_S5000x128_S128x117_S5000x117_1_0_0_1_n_n.lhsIdx i c 0).val = (i 0).val := by
  unfold DotDims.lhsIdx
  rw [dif_neg (show ¬(0 : Fin S5000x128.rank) ∈ dot_S5000x128_S128x117_S5000x117_1_0_0_1_n_n.lhsBatch by decide), dif_pos (show (0 : Fin S5000x128.rank) ∈ dot_S5000x128_S128x117_S5000x117_1_0_0_1_n_n.lhsNonContracting by decide)]
  rfl
theorem mm_lhs1 (i : S5000x117.Idx) (c : dot_S5000x128_S128x117_S5000x117_1_0_0_1_n_n.contr.Idx) :
    (dot_S5000x128_S128x117_S5000x117_1_0_0_1_n_n.lhsIdx i c 1).val = (c ⟨0, by decide⟩).val :=
  dot_S5000x128_S128x117_S5000x117_1_0_0_1_n_n.lhsIdx_val_of_single rfl i c
theorem mm_rhs0 (i : S5000x117.Idx) (c : dot_S5000x128_S128x117_S5000x117_1_0_0_1_n_n.contr.Idx) :
    (dot_S5000x128_S128x117_S5000x117_1_0_0_1_n_n.rhsIdx i c 0).val = (c ⟨0, by decide⟩).val :=
  dot_S5000x128_S128x117_S5000x117_1_0_0_1_n_n.rhsIdx_val_of_single rfl i c
theorem mm_rhs1 (i : S5000x117.Idx) (c : dot_S5000x128_S128x117_S5000x117_1_0_0_1_n_n.contr.Idx) :
    (dot_S5000x128_S128x117_S5000x117_1_0_0_1_n_n.rhsIdx i c 1).val = (i 1).val := by
  unfold DotDims.rhsIdx
  rw [dif_neg (show ¬(1 : Fin S128x117.rank) ∈ dot_S5000x128_S128x117_S5000x117_1_0_0_1_n_n.rhsBatch by decide), dif_pos (show (1 : Fin S128x117.rank) ∈ dot_S5000x128_S128x117_S5000x117_1_0_0_1_n_n.rhsNonContracting by decide)]
  rfl

/-- The kernel's matrix product into a zero accumulator at entry (p, q) of a block: row `p` times column `q`. -/
theorem mm_at (L : FVec Ideal S5000x128 .f32) (R : FVec Ideal S128x117 .f32) (p : Fin 5000) (q : Fin 117) :
    matmul dot_S5000x128_S128x117_S5000x117_1_0_0_1_n_n none L R (constant S5000x117 .f32 0x00000000#32) (ix2 p q)
      = ∑ k : Fin 128, L (ix2 p k) * R (ix2 k q) := by
  simp only [matmul]
  rw [Ideal.matmul_constant_zero_apply, ← Equiv.sum_comp (contrEquiv1 dot_S5000x128_S128x117_S5000x117_1_0_0_1_n_n 128 rfl rfl).symm]
  refine Finset.sum_congr rfl fun k _ => ?_
  have hk := contrEquiv1_symm_val dot_S5000x128_S128x117_S5000x117_1_0_0_1_n_n 128 rfl rfl k
  have el : dot_S5000x128_S128x117_S5000x117_1_0_0_1_n_n.lhsIdx (ix2 p q) ((contrEquiv1 dot_S5000x128_S128x117_S5000x117_1_0_0_1_n_n 128 rfl rfl).symm k) = ix2 p k := funext fun a => Fin.ext (by
    match a with
    | ⟨0, _⟩ => exact mm_lhs0 _ _
    | ⟨1, _⟩ => exact (mm_lhs1 _ _).trans hk)
  have er : dot_S5000x128_S128x117_S5000x117_1_0_0_1_n_n.rhsIdx (ix2 p q) ((contrEquiv1 dot_S5000x128_S128x117_S5000x117_1_0_0_1_n_n 128 rfl rfl).symm k) = ix2 k q := funext fun a => Fin.ext (by
    match a with
    | ⟨0, _⟩ => exact (mm_rhs0 _ _).trans hk
    | ⟨1, _⟩ => exact mm_rhs1 _ _)
  rw [el, er]

/-! ## The body's broadcasts at an entry -/

/-- The clipped in-degree column of a block, broadcast along the features, read at (p, k). -/
theorem degcol_at (v0 : FVec Ideal S5000x1 .f32) (p : Fin 5000) (k : Fin 128) :
    broadcastTo S5000x128 (maximumf v0 (broadcast S5000x1 (Scalar.ofBits .f32 0x3F800000#32))) broadcasts_S5000x1_S5000x128 (ix2 p k)
      = max (v0 (ix2 p 0)) (Ideal.ofBits .f32 0x3F800000#32) := by
  generalize hy : maximumf v0 (broadcast S5000x1 (Scalar.ofBits (F := Ideal) .f32 0x3F800000#32)) = y
  rw [broadcastTo_apply y broadcasts_S5000x1_S5000x128 (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])]
  subst hy
  rfl

/-! ## The stored block at an entry -/

theorem pay_at (v0 : Vec Ideal S5000x1 .f32) (v4 : Vec Ideal S5000x128 .f32) (v8 : Vec Ideal S128x117 .f32)
    (v10 : Vec Ideal S5000x128 .f32) (v11 : Vec Ideal S128x117 .f32) (v14 : Vec Ideal S1x117 .f32) (p : Fin 5000) (q : Fin 117) :
    k0_pay1 v0 v4 v8 v10 v11 v14 (ix2 p q)
      = sageRelu 128 (fun k => v4 (ix2 p k)) (v0 (ix2 p 0)) (fun k => v10 (ix2 p k)) (fun k => v8 (ix2 k q)) (fun k => v11 (ix2 k q)) (v14 (ix2 0 q)) := by
  unfold k0_pay1 sageRelu sageLin
  rw [maximumf_apply, addf_apply, addf_apply, mm_at, mm_at]
  simp only [shapeCast_self]
  rw [broadcastTo_1b_ab_apply v14 broadcasts_S1x117_S5000x117 p q]
  refine congrArg₂ max (congrArg₂ (· + ·) (congrArg₂ (· + ·) (Finset.sum_congr rfl fun k _ => ?_) rfl) rfl) rfl
  show Ideal.div (v4 (ix2 p k)) _ * v8 (ix2 k q) = _
  rw [degcol_at v0 p k]

/-! ## A stored block is a block of the layer -/

variable (V : (c : Dev nD) → (b : Ref sig .tc) → Buf (Elt Ideal) ((c : Thread nD τ).loc b))

/-- The printed index maps over the grid: the row windows sit at block `t` of the rows, the weights and the bias at
    their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` as a row of the whole arrays. -/
def row (t : Fin cfg0.N) (p : Fin 5000) : Fin 50000 :=
  ⟨t.val * 5000 + p.val, by have h : t.val < 10 := lt_of_lt_of_eq t.isLt N_0; have := p.isLt; omega⟩

theorem iblk_A (c : Dev nD) (t : Fin cfg0.N) (p : Fin 5000) (k : Fin 128) :
    (iblk0 V c 0 t : Vec Ideal S5000x128 .f32) (ix2 p k) = (V c main_v17 : S50000x128.Idx → Ideal .f32) (ix2 (row t p) k) := by
  obtain ⟨e00, e01, -⟩ := idx_facts t
  unfold iblk0
  rw [View.read_apply]
  show V c main_v17 _ = V c main_v17 _
  congr 1
  funext a
  apply Fin.ext
  match a with
  | ⟨0, _⟩ => show win0_0.index t 0 * 5000 + 1 * p.val = t.val * 5000 + p.val; rw [e00]; omega
  | ⟨1, _⟩ => show win0_0.index t 1 * 128 + 1 * k.val = k.val; rw [e01]; omega

theorem iblk_D (c : Dev nD) (t : Fin cfg0.N) (p : Fin 5000) :
    (iblk0 V c 1 t : Vec Ideal S5000x1 .f32) (ix2 p 0) = (V c main_v7 : S50000x1.Idx → Ideal .f32) (ix2 (row t p) 0) := by
  obtain ⟨-, -, e10, e11, -⟩ := idx_facts t
  unfold iblk0
  rw [View.read_apply]
  show V c main_v7 _ = V c main_v7 _
  congr 1
  funext a
  apply Fin.ext
  match a with
  | ⟨0, _⟩ => show win0_1.index t 0 * 5000 + 1 * p.val = t.val * 5000 + p.val; rw [e10]; omega
  | ⟨1, _⟩ => show win0_1.index t 1 * 1 + 1 * 0 = 0; rw [e11]

theorem iblk_X (c : Dev nD) (t : Fin cfg0.N) (p : Fin 5000) (k : Fin 128) :
    (iblk0 V c 2 t : Vec Ideal S5000x128 .f32) (ix2 p k) = (V c main_arg0 : S50000x128.Idx → Ideal .f32) (ix2 (row t p) k) := by
  obtain ⟨-, -, -, -, e20, e21, -⟩ := idx_facts t
  unfold iblk0
  rw [View.read_apply]
  show V c main_arg0 _ = V c main_arg0 _
  congr 1
  funext a
  apply Fin.ext
  match a with
  | ⟨0, _⟩ => show win0_2.index t 0 * 5000 + 1 * p.val = t.val * 5000 + p.val; rw [e20]; omega
  | ⟨1, _⟩ => show win0_2.index t 1 * 128 + 1 * k.val = k.val; rw [e21]; omega

theorem iblk_Wl (c : Dev nD) (t : Fin cfg0.N) (k : Fin 128) (q : Fin 117) :
    (iblk0 V c 3 t : Vec Ideal S128x117 .f32) (ix2 k q) = (V c main_arg2 : S128x117.Idx → Ideal .f32) (ix2 k q) := by
  obtain ⟨-, -, -, -, -, -, e30, e31, -⟩ := idx_facts t
  unfold iblk0
  rw [View.read_apply]
  show V c main_arg2 _ = V c main_arg2 _
  congr 1
  funext a
  apply Fin.ext
  match a with
  | ⟨0, _⟩ => show win0_3.index t 0 * 128 + 1 * k.val = k.val; rw [e30]; omega
  | ⟨1, _⟩ => show win0_3.index t 1 * 117 + 1 * q.val = q.val; rw [e31]; omega

theorem iblk_Wr (c : Dev nD) (t : Fin cfg0.N) (k : Fin 128) (q : Fin 117) :
    (iblk0 V c 4 t : Vec Ideal S128x117 .f32) (ix2 k q) = (V c main_arg3 : S128x117.Idx → Ideal .f32) (ix2 k q) := by
  obtain ⟨-, -, -, -, -, -, -, -, e40, e41, -⟩ := idx_facts t
  unfold iblk0
  rw [View.read_apply]
  show V c main_arg3 _ = V c main_arg3 _
  congr 1
  funext a
  apply Fin.ext
  match a with
  | ⟨0, _⟩ => show win0_4.index t 0 * 128 + 1 * k.val = k.val; rw [e40]; omega
  | ⟨1, _⟩ => show win0_4.index t 1 * 117 + 1 * q.val = q.val; rw [e41]; omega

theorem iblk_b (c : Dev nD) (t : Fin cfg0.N) (q : Fin 117) :
    (iblk0 V c 5 t : Vec Ideal S1x117 .f32) (ix2 0 q) = (V c main_v18 : S1x117.Idx → Ideal .f32) (ix2 0 q) := by
  obtain ⟨-, -, -, -, -, -, -, -, -, -, e50, e51, -⟩ := idx_facts t
  unfold iblk0
  rw [View.read_apply]
  show V c main_v18 _ = V c main_v18 _
  congr 1
  funext a
  apply Fin.ext
  match a with
  | ⟨0, _⟩ => show win0_5.index t 0 * 1 + 1 * 0 = 0; rw [e50]
  | ⟨1, _⟩ => show win0_5.index t 1 * 117 + 1 * q.val = q.val; rw [e51]; omega

/-- WHAT POINT `t` WRITES BACK is block `t` of the layer applied to the arrays the region is entered with. -/
theorem flushed_eq (c : Dev nD) (t : Fin cfg0.N) :
    (dat0 V c).flushed 6 t = ((cfg0.win 6).blk t).view.read (Elt Ideal)
      (out117 (F := Ideal) (V c main_v17) (V c main_v7) (V c main_arg0) (V c main_arg2) (V c main_arg3) (V c main_v18)) := by
  show (cfg0.win 6).cut (grid0.coords t) ((dat0 V c).after 6 t) = _
  rw [after0_6]
  unfold out0_6
  rw [View.canon_unit_zero hz]
  simp only [View.ld_unit_zero (S := S5000x1) hz, View.ld_unit_zero (S := S5000x128) hz, View.ld_unit_zero (S := S128x117) hz, View.ld_unit_zero (S := S1x117) hz]
  funext j
  obtain ⟨p, q, rfl⟩ : ∃ (p : Fin 5000) (q : Fin 117), j = ix2 p q := ⟨j 0, j 1, eq_ix2 j⟩
  refine (pay_at (iblk0 V c 1 t) (iblk0 V c 0 t) (iblk0 V c 3 t) (iblk0 V c 2 t) (iblk0 V c 4 t) (iblk0 V c 5 t) p q).trans ?_
  rw [View.read_apply]
  have hemb : ((cfg0.win 6).blk t).view.emb (ix2 p q) = (ix2 (row t p) q : S50000x117.Idx) := by
    obtain ⟨-, -, -, -, -, -, -, -, -, -, -, -, e60, e61⟩ := idx_facts t
    funext a
    apply Fin.ext
    match a with
    | ⟨0, _⟩ => show win0_6.index t 0 * 5000 + 1 * p.val = t.val * 5000 + p.val; rw [e60]; omega
    | ⟨1, _⟩ => show win0_6.index t 1 * 117 + 1 * q.val = q.val; rw [e61]; omega
  rw [hemb]
  refine Eq.trans ?_ (out117_at (V c main_v17) (V c main_v7) (V c main_arg0) (V c main_arg2) (V c main_arg3) (V c main_v18) (row t p) q).symm
  simp only [iblk_A V c t, iblk_D V c t, iblk_X V c t, iblk_Wl V c t, iblk_Wr V c t, iblk_b V c t]

/-- The ten blocks tile the result: row `r` is in block `r / 5000`. -/
theorem covered (i : S50000x117.Idx) :
    ∃ t : Fin cfg0.N, (cfg0.win 6).flush t = true ∧ i ∈ ((cfg0.win 6).blk t).view.set := by
  have h0 : (i 0).val < 50000 := (i 0).isLt
  have h1 : (i 1).val < 117 := (i 1).isLt
  let t : Fin cfg0.N := ⟨(i 0).val / 5000, by rw [show cfg0.N = 10 from N_0]; omega⟩
  obtain ⟨-, -, -, -, -, -, -, -, -, -, -, -, e60, e61⟩ := idx_facts t
  refine ⟨t, flush0_6 t, ?_⟩
  show i ∈ ((View.whole main_v19).slice (win0_6.rect t)).set
  rw [View.set_slice_whole, Rect.mem_set_unit]
  intro a
  match a with
  | ⟨0, _⟩ => show win0_6.index t 0 * 5000 ≤ (i 0).val ∧ (i 0).val < win0_6.index t 0 * 5000 + 5000
              rw [e60]; show (i 0).val / 5000 * 5000 ≤ (i 0).val ∧ (i 0).val < (i 0).val / 5000 * 5000 + 5000; omega
  | ⟨1, _⟩ => show win0_6.index t 1 * 117 ≤ (i 1).val ∧ (i 1).val < win0_6.index t 1 * 117 + 117
              rw [e61]; omega

/-- THE RESULT ARRAY after the region: the layer of the arrays the region is entered with. -/
theorem final (c : Dev nD) :
    (dat0 V c).arrAt 6 cfg0.N = out117 (F := Ideal) (V c main_v17) (V c main_v7) (V c main_arg0) (V c main_arg2) (V c main_arg3) (V c main_v18) :=
  (dat0 V c).arrAt_eq_of_cover 6 _ (fun t _ => flushed_eq V c t) covered

end Cert.KernelIdeal.Region0

end
-- ==== Proof.Layer42.lean ====
/-
  The reference's layer 117 → 42 on all 50000 nodes, read entry by entry.

  `lin42` is the affine part as the reference writes it: divide the neighbour sums by the clipped in-degree
  (a column, broadcast along the features), two matrix products, the bias row broadcast down the nodes.
  Read at node `p` and feature `q` it is the entry `sageLin` of row `p` of the operands and column `q` of the
  weights.
-/
import proofs.«150746_j69475390980563_1_alg».proof.Proof.Gen.ReferenceIdeal
import proofs.«150746_j69475390980563_1_alg».proof.Proof.SageCell
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx Cert.ReferenceIdeal Cert.ReferenceIdeal.Gen

section Defs
variable {F : FTy → Type} [FloatOps F]

/-- The affine part of the layer on whole arrays: neighbour sums `A`, in-degrees `D`, own features `X`, the two
    weight matrices and the bias as a one-row array. -/
def lin42 (A : FVec F S50000x117 .f32) (D : FVec F S50000x1 .f32) (X : FVec F S50000x117 .f32)
    (Wl Wr : FVec F S117x42 .f32) (brow : FVec F S1x42 .f32) : FVec F S50000x42 .f32 :=
  addf (addf (Host.dotGeneral dot_S50000x117_S117x42_S50000x42_1_0_0_1_n_n none (Host.divf A (broadcastInDim S50000x117 ![0, 1] bcast_S50000x1_S50000x117_0_1 (maximumf D (broadcastInDim S50000x1 ![] bcast_S_S50000x1 (constant S_ .f32 0x3F800000#32))))) Wl) (Host.dotGeneral dot_S50000x117_S117x42_S50000x42_1_0_0_1_n_n none X Wr)) (broadcastInDim S50000x42 ![0, 1] bcast_S1x42_S50000x42_0_1 brow)

section Rectified
/-- The layer's result: the affine part rectified (entry by entry the larger of it and zero, `sageRelu`). -/
def out42 (A : FVec F S50000x117 .f32) (D : FVec F S50000x1 .f32) (X : FVec F S50000x117 .f32)
    (Wl Wr : FVec F S117x42 .f32) (brow : FVec F S1x42 .f32) : FVec F S50000x42 .f32 :=
  maximumf (lin42 A D X Wl Wr brow) (broadcastInDim S50000x42 ![] bcast_S_S50000x42 (constant S_ .f32 0x00000000#32))
end Rectified

end Defs

/-! ## The operand indices of the product at an output entry -/

theorem dot42_lhs0 (i : S50000x42.Idx) (c : dot_S50000x117_S117x42_S50000x42_1_0_0_1_n_n.contr.Idx) :
    (dot_S50000x117_S117x42_S50000x42_1_0_0_1_n_n.lhsIdx i c 0).val = (i 0).val := by
  unfold DotDims.lhsIdx
  rw [dif_neg (show ¬(0 : Fin S50000x117.rank) ∈ dot_S50000x117_S117x42_S50000x42_1_0_0_1_n_n.lhsBatch by decide), dif_pos (show (0 : Fin S50000x117.rank) ∈ dot_S50000x117_S117x42_S50000x42_1_0_0_1_n_n.lhsNonContracting by decide)]
  rfl
theorem dot42_lhs1 (i : S50000x42.Idx) (c : dot_S50000x117_S117x42_S50000x42_1_0_0_1_n_n.contr.Idx) :
    (dot_S50000x117_S117x42_S50000x42_1_0_0_1_n_n.lhsIdx i c 1).val = (c ⟨0, by decide⟩).val :=
  dot_S50000x117_S117x42_S50000x42_1_0_0_1_n_n.lhsIdx_val_of_single rfl i c
theorem dot42_rhs0 (i : S50000x42.Idx) (c : dot_S50000x117_S117x42_S50000x42_1_0_0_1_n_n.contr.Idx) :
    (dot_S50000x117_S117x42_S50000x42_1_0_0_1_n_n.rhsIdx i c 0).val = (c ⟨0, by decide⟩).val :=
  dot_S50000x117_S117x42_S50000x42_1_0_0_1_n_n.rhsIdx_val_of_single rfl i c
theorem dot42_rhs1 (i : S50000x42.Idx) (c : dot_S50000x117_S117x42_S50000x42_1_0_0_1_n_n.contr.Idx) :
    (dot_S50000x117_S117x42_S50000x42_1_0_0_1_n_n.rhsIdx i c 1).val = (i 1).val := by
  unfold DotDims.rhsIdx
  rw [dif_neg (show ¬(1 : Fin S117x42.rank) ∈ dot_S50000x117_S117x42_S50000x42_1_0_0_1_n_n.rhsBatch by decide), dif_pos (show (1 : Fin S117x42.rank) ∈ dot_S50000x117_S117x42_S50000x42_1_0_0_1_n_n.rhsNonContracting by decide)]
  rfl

/-- The host's matrix product at entry (p, q): the sum over the 117 shared features of row `p` times column `q`. -/
theorem dot42_at (L : FVec Ideal S50000x117 .f32) (R : FVec Ideal S117x42 .f32) (p : Fin 50000) (q : Fin 42) :
    Host.dotGeneral dot_S50000x117_S117x42_S50000x42_1_0_0_1_n_n none L R (ix2 p q) = ∑ k : Fin 117, L (ix2 p k) * R (ix2 k q) := by
  simp only [Host.dotGeneral]
  rw [Ideal.dotGeneral_apply, ← Equiv.sum_comp (contrEquiv1 dot_S50000x117_S117x42_S50000x42_1_0_0_1_n_n 117 rfl rfl).symm]
  refine Finset.sum_congr rfl fun k _ => ?_
  have hk := contrEquiv1_symm_val dot_S50000x117_S117x42_S50000x42_1_0_0_1_n_n 117 rfl rfl k
  have el : dot_S50000x117_S117x42_S50000x42_1_0_0_1_n_n.lhsIdx (ix2 p q) ((contrEquiv1 dot_S50000x117_S117x42_S50000x42_1_0_0_1_n_n 117 rfl rfl).symm k) = ix2 p k := funext fun a => Fin.ext (by
    match a with
    | ⟨0, _⟩ => exact dot42_lhs0 _ _
    | ⟨1, _⟩ => exact (dot42_lhs1 _ _).trans hk)
  have er : dot_S50000x117_S117x42_S50000x42_1_0_0_1_n_n.rhsIdx (ix2 p q) ((contrEquiv1 dot_S50000x117_S117x42_S50000x42_1_0_0_1_n_n 117 rfl rfl).symm k) = ix2 k q := funext fun a => Fin.ext (by
    match a with
    | ⟨0, _⟩ => exact (dot42_rhs0 _ _).trans hk
    | ⟨1, _⟩ => exact dot42_rhs1 _ _)
  rw [el, er]

/-! ## The broadcasts at an entry -/

/-- The clipped in-degree column, broadcast along the 117 features, read at (p, k): the column's entry at node `p`. -/
theorem degcol117_at (D : FVec Ideal S50000x1 .f32) (p : Fin 50000) (k : Fin 117) :
    broadcastInDim S50000x117 ![0, 1] bcast_S50000x1_S50000x117_0_1 (maximumf D (broadcastInDim S50000x1 ![] bcast_S_S50000x1 (constant S_ .f32 0x3F800000#32))) (ix2 p k)
      = max (D (ix2 p 0)) (Ideal.ofBits .f32 0x3F800000#32) := by
  generalize hy : maximumf D (broadcastInDim S50000x1 ![] bcast_S_S50000x1 (constant S_ .f32 0x3F800000#32)) = y
  rw [broadcastInDim_apply _ bcast_S50000x1_S50000x117_0_1 y (ix2 p k) (ix2 p 0) (fun a => match a with
    | ⟨0, _⟩ => by show p.val = if (50000 : Nat) = 1 then 0 else p.val; rw [if_neg (by decide)]
    | ⟨1, _⟩ => by show 0 = if (1 : Nat) = 1 then 0 else k.val; rw [if_pos rfl])]
  subst hy
  show max (D (ix2 p 0)) (broadcastInDim S50000x1 ![] bcast_S_S50000x1 (constant (F := Ideal) S_ .f32 0x3F800000#32) (ix2 p 0)) = _
  rw [broadcastInDim_apply _ bcast_S_S50000x1 (constant (F := Ideal) S_ .f32 0x3F800000#32) (ix2 p 0) ix0 (fun a => a.elim0)]
  rfl

/-- The bias row broadcast down the nodes, read at (p, q): the row's entry at feature `q`. -/
theorem biasrow42_at (brow : FVec Ideal S1x42 .f32) (p : Fin 50000) (q : Fin 42) :
    broadcastInDim S50000x42 ![0, 1] bcast_S1x42_S50000x42_0_1 brow (ix2 p q) = brow (ix2 0 q) :=
  broadcastInDim_apply _ bcast_S1x42_S50000x42_0_1 brow (ix2 p q) (ix2 0 q) (fun a => match a with
    | ⟨0, _⟩ => by show 0 = if (1 : Nat) = 1 then 0 else p.val; rw [if_pos rfl]
    | ⟨1, _⟩ => by show q.val = if (42 : Nat) = 1 then 0 else q.val; rw [if_neg (by decide)])

/-! ## The layer at an entry -/

theorem lin42_at (A : FVec Ideal S50000x117 .f32) (D : FVec Ideal S50000x1 .f32) (X : FVec Ideal S50000x117 .f32)
    (Wl Wr : FVec Ideal S117x42 .f32) (brow : FVec Ideal S1x42 .f32) (p : Fin 50000) (q : Fin 42) :
    lin42 A D X Wl Wr brow (ix2 p q)
      = sageLin 117 (fun k => A (ix2 p k)) (D (ix2 p 0)) (fun k => X (ix2 p k)) (fun k => Wl (ix2 k q)) (fun k => Wr (ix2 k q)) (brow (ix2 0 q)) := by
  unfold lin42 sageLin
  rw [addf_apply, addf_apply, dot42_at, dot42_at, biasrow42_at]
  refine congrArg₂ (· + ·) (congrArg₂ (· + ·) (Finset.sum_congr rfl fun k _ => ?_) rfl) rfl
  show Ideal.div (A (ix2 p k)) _ * Wl (ix2 k q) = _
  rw [degcol117_at D p k]

section Rectified
theorem out42_at (A : FVec Ideal S50000x117 .f32) (D : FVec Ideal S50000x1 .f32) (X : FVec Ideal S50000x117 .f32)
    (Wl Wr : FVec Ideal S117x42 .f32) (brow : FVec Ideal S1x42 .f32) (p : Fin 50000) (q : Fin 42) :
    out42 A D X Wl Wr brow (ix2 p q)
      = sageRelu 117 (fun k => A (ix2 p k)) (D (ix2 p 0)) (fun k => X (ix2 p k)) (fun k => Wl (ix2 k q)) (fun k => Wr (ix2 k q)) (brow (ix2 0 q)) := by
  unfold out42 sageRelu
  rw [maximumf_apply, lin42_at,
    broadcastInDim_apply _ bcast_S_S50000x42 (constant (F := Ideal) S_ .f32 0x00000000#32) (ix2 p q) ix0 (fun a => a.elim0)]
  rfl
end Rectified

end Cert.Sage

end
-- ==== Proof.Region1.lean ====
/-
  What the second kernel leaves in its result array: the reference's layer 117 → 42 of the arrays it is entered with.

  The kernel walks the 50000 nodes in ten blocks of 5000 rows. At a block it loads 5000 rows of the neighbour sums,
  of the in-degrees and of the features, the two whole weight matrices and the bias row, and stores 5000 result
  rows. Entry (p, q) of a stored block is the entry `sageRelu` of row `p` of the loaded rows and column `q` of the
  weights (`pay_at`); row `p` of block `t` is row `5000 t + p` of the arrays, so the stored block is block `t` of the
  reference's layer applied to the whole arrays (`flushed_eq`); the ten blocks tile the result (`covered`), so the
  result array ends holding that layer (`final`).
-/
import proofs.«150746_j69475390980563_1_alg».proof.Proof.Gen.KernelIdeal.Frame
import proofs.«150746_j69475390980563_1_alg».proof.Proof.Layer42
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Sage

theorem hz : (![0, 0] : Fin 2 → Nat) = fun _ => 0 := funext fun a => by fin_cases a <;> rfl

/-! ## The block product at an entry -/

theorem mm_lhs0 (i : S5000x42.Idx) (c : dot_S5000x117_S117x42_S5000x42_1_0_0_1_n_n.contr.Idx) :
    (dot_S5000x117_S117x42_S5000x42_1_0_0_1_n_n.lhsIdx i c 0).val = (i 0).val := by
  unfold DotDims.lhsIdx
  rw [dif_neg (show ¬(0 : Fin S5000x117.rank) ∈ dot_S5000x117_S117x42_S5000x42_1_0_0_1_n_n.lhsBatch by decide), dif_pos (show (0 : Fin S5000x117.rank) ∈ dot_S5000x117_S117x42_S5000x42_1_0_0_1_n_n.lhsNonContracting by decide)]
  rfl
theorem mm_lhs1 (i : S5000x42.Idx) (c : dot_S5000x117_S117x42_S5000x42_1_0_0_1_n_n.contr.Idx) :
    (dot_S5000x117_S117x42_S5000x42_1_0_0_1_n_n.lhsIdx i c 1).val = (c ⟨0, by decide⟩).val :=
  dot_S5000x117_S117x42_S5000x42_1_0_0_1_n_n.lhsIdx_val_of_single rfl i c
theorem mm_rhs0 (i : S5000x42.Idx) (c : dot_S5000x117_S117x42_S5000x42_1_0_0_1_n_n.contr.Idx) :
    (dot_S5000x117_S117x42_S5000x42_1_0_0_1_n_n.rhsIdx i c 0).val = (c ⟨0, by decide⟩).val :=
  dot_S5000x117_S117x42_S5000x42_1_0_0_1_n_n.rhsIdx_val_of_single rfl i c
theorem mm_rhs1 (i : S5000x42.Idx) (c : dot_S5000x117_S117x42_S5000x42_1_0_0_1_n_n.contr.Idx) :
    (dot_S5000x117_S117x42_S5000x42_1_0_0_1_n_n.rhsIdx i c 1).val = (i 1).val := by
  unfold DotDims.rhsIdx
  rw [dif_neg (show ¬(1 : Fin S117x42.rank) ∈ dot_S5000x117_S117x42_S5000x42_1_0_0_1_n_n.rhsBatch by decide), dif_pos (show (1 : Fin S117x42.rank) ∈ dot_S5000x117_S117x42_S5000x42_1_0_0_1_n_n.rhsNonContracting by decide)]
  rfl

/-- The kernel's matrix product into a zero accumulator at entry (p, q) of a block: row `p` times column `q`. -/
theorem mm_at (L : FVec Ideal S5000x117 .f32) (R : FVec Ideal S117x42 .f32) (p : Fin 5000) (q : Fin 42) :
    matmul dot_S5000x117_S117x42_S5000x42_1_0_0_1_n_n none L R (constant S5000x42 .f32 0x00000000#32) (ix2 p q)
      = ∑ k : Fin 117, L (ix2 p k) * R (ix2 k q) := by
  simp only [matmul]
  rw [Ideal.matmul_constant_zero_apply, ← Equiv.sum_comp (contrEquiv1 dot_S5000x117_S117x42_S5000x42_1_0_0_1_n_n 117 rfl rfl).symm]
  refine Finset.sum_congr rfl fun k _ => ?_
  have hk := contrEquiv1_symm_val dot_S5000x117_S117x42_S5000x42_1_0_0_1_n_n 117 rfl rfl k
  have el : dot_S5000x117_S117x42_S5000x42_1_0_0_1_n_n.lhsIdx (ix2 p q) ((contrEquiv1 dot_S5000x117_S117x42_S5000x42_1_0_0_1_n_n 117 rfl rfl).symm k) = ix2 p k := funext fun a => Fin.ext (by
    match a with
    | ⟨0, _⟩ => exact mm_lhs0 _ _
    | ⟨1, _⟩ => exact (mm_lhs1 _ _).trans hk)
  have er : dot_S5000x117_S117x42_S5000x42_1_0_0_1_n_n.rhsIdx (ix2 p q) ((contrEquiv1 dot_S5000x117_S117x42_S5000x42_1_0_0_1_n_n 117 rfl rfl).symm k) = ix2 k q := funext fun a => Fin.ext (by
    match a with
    | ⟨0, _⟩ => exact (mm_rhs0 _ _).trans hk
    | ⟨1, _⟩ => exact mm_rhs1 _ _)
  rw [el, er]

/-! ## The body's broadcasts at an entry -/

/-- The clipped in-degree column of a block, broadcast along the features, read at (p, k). -/
theorem degcol_at (v0 : FVec Ideal S5000x1 .f32) (p : Fin 5000) (k : Fin 117) :
    broadcastTo S5000x117 (maximumf v0 (broadcast S5000x1 (Scalar.ofBits .f32 0x3F800000#32))) broadcasts_S5000x1_S5000x117 (ix2 p k)
      = max (v0 (ix2 p 0)) (Ideal.ofBits .f32 0x3F800000#32) := by
  generalize hy : maximumf v0 (broadcast S5000x1 (Scalar.ofBits (F := Ideal) .f32 0x3F800000#32)) = y
  rw [broadcastTo_apply y broadcasts_S5000x1_S5000x117 (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])]
  subst hy
  rfl

/-! ## The stored block at an entry -/

theorem pay_at (v0 : Vec Ideal S5000x1 .f32) (v4 : Vec Ideal S5000x117 .f32) (v8 : Vec Ideal S117x42 .f32)
    (v10 : Vec Ideal S5000x117 .f32) (v11 : Vec Ideal S117x42 .f32) (v14 : Vec Ideal S1x42 .f32) (p : Fin 5000) (q : Fin 42) :
    k1_pay1 v0 v4 v8 v10 v11 v14 (ix2 p q)
      = sageRelu 117 (fun k => v4 (ix2 p k)) (v0 (ix2 p 0)) (fun k => v10 (ix2 p k)) (fun k => v8 (ix2 k q)) (fun k => v11 (ix2 k q)) (v14 (ix2 0 q)) := by
  unfold k1_pay1 sageRelu sageLin
  rw [maximumf_apply, addf_apply, addf_apply, mm_at, mm_at]
  simp only [shapeCast_self]
  rw [broadcastTo_1b_ab_apply v14 broadcasts_S1x42_S5000x42 p q]
  refine congrArg₂ max (congrArg₂ (· + ·) (congrArg₂ (· + ·) (Finset.sum_congr rfl fun k _ => ?_) rfl) rfl) rfl
  show Ideal.div (v4 (ix2 p k)) _ * v8 (ix2 k q) = _
  rw [degcol_at v0 p k]

/-! ## A stored block is a block of the layer -/

variable (V : (c : Dev nD) → (b : Ref sig .tc) → Buf (Elt Ideal) ((c : Thread nD τ).loc b))

/-- The printed index maps over the grid: the row windows sit at block `t` of the rows, the weights and the bias at
    their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of block `t` as a row of the whole arrays. -/
def row (t : Fin cfg1.N) (p : Fin 5000) : Fin 50000 :=
  ⟨t.val * 5000 + p.val, by have h : t.val < 10 := lt_of_lt_of_eq t.isLt N_1; have := p.isLt; omega⟩

theorem iblk_A (c : Dev nD) (t : Fin cfg1.N) (p : Fin 5000) (k : Fin 117) :
    (iblk1 V c 0 t : Vec Ideal S5000x117 .f32) (ix2 p k) = (V c main_v29 : S50000x117.Idx → Ideal .f32) (ix2 (row t p) k) := by
  obtain ⟨e00, e01, -⟩ := idx_facts t
  unfold iblk1
  rw [View.read_apply]
  show V c main_v29 _ = V c main_v29 _
  congr 1
  funext a
  apply Fin.ext
  match a with
  | ⟨0, _⟩ => show win1_0.index t 0 * 5000 + 1 * p.val = t.val * 5000 + p.val; rw [e00]; omega
  | ⟨1, _⟩ => show win1_0.index t 1 * 117 + 1 * k.val = k.val; rw [e01]; omega

theorem iblk_D (c : Dev nD) (t : Fin cfg1.N) (p : Fin 5000) :
    (iblk1 V c 1 t : Vec Ideal S5000x1 .f32) (ix2 p 0) = (V c main_v7 : S50000x1.Idx → Ideal .f32) (ix2 (row t p) 0) := by
  obtain ⟨-, -, e10, e11, -⟩ := idx_facts t
  unfold iblk1
  rw [View.read_apply]
  show V c main_v7 _ = V c main_v7 _
  congr 1
  funext a
  apply Fin.ext
  match a with
  | ⟨0, _⟩ => show win1_1.index t 0 * 5000 + 1 * p.val = t.val * 5000 + p.val; rw [e10]; omega
  | ⟨1, _⟩ => show win1_1.index t 1 * 1 + 1 * 0 = 0; rw [e11]

theorem iblk_X (c : Dev nD) (t : Fin cfg1.N) (p : Fin 5000) (k : Fin 117) :
    (iblk1 V c 2 t : Vec Ideal S5000x117 .f32) (ix2 p k) = (V c main_v19 : S50000x117.Idx → Ideal .f32) (ix2 (row t p) k) := by
  obtain ⟨-, -, -, -, e20, e21, -⟩ := idx_facts t
  unfold iblk1
  rw [View.read_apply]
  show V c main_v19 _ = V c main_v19 _
  congr 1
  funext a
  apply Fin.ext
  match a with
  | ⟨0, _⟩ => show win1_2.index t 0 * 5000 + 1 * p.val = t.val * 5000 + p.val; rw [e20]; omega
  | ⟨1, _⟩ => show win1_2.index t 1 * 117 + 1 * k.val = k.val; rw [e21]; omega

theorem iblk_Wl (c : Dev nD) (t : Fin cfg1.N) (k : Fin 117) (q : Fin 42) :
    (iblk1 V c 3 t : Vec Ideal S117x42 .f32) (ix2 k q) = (V c main_arg5 : S117x42.Idx → Ideal .f32) (ix2 k q) := by
  obtain ⟨-, -, -, -, -, -, e30, e31, -⟩ := idx_facts t
  unfold iblk1
  rw [View.read_apply]
  show V c main_arg5 _ = V c main_arg5 _
  congr 1
  funext a
  apply Fin.ext
  match a with
  | ⟨0, _⟩ => show win1_3.index t 0 * 117 + 1 * k.val = k.val; rw [e30]; omega
  | ⟨1, _⟩ => show win1_3.index t 1 * 42 + 1 * q.val = q.val; rw [e31]; omega

theorem iblk_Wr (c : Dev nD) (t : Fin cfg1.N) (k : Fin 117) (q : Fin 42) :
    (iblk1 V c 4 t : Vec Ideal S117x42 .f32) (ix2 k q) = (V c main_arg6 : S117x42.Idx → Ideal .f32) (ix2 k q) := by
  obtain ⟨-, -, -, -, -, -, -, -, e40, e41, -⟩ := idx_facts t
  unfold iblk1
  rw [View.read_apply]
  show V c main_arg6 _ = V c main_arg6 _
  congr 1
  funext a
  apply Fin.ext
  match a with
  | ⟨0, _⟩ => show win1_4.index t 0 * 117 + 1 * k.val = k.val; rw [e40]; omega
  | ⟨1, _⟩ => show win1_4.index t 1 * 42 + 1 * q.val = q.val; rw [e41]; omega

theorem iblk_b (c : Dev nD) (t : Fin cfg1.N) (q : Fin 42) :
    (iblk1 V c 5 t : Vec Ideal S1x42 .f32) (ix2 0 q) = (V c main_v30 : S1x42.Idx → Ideal .f32) (ix2 0 q) := by
  obtain ⟨-, -, -, -, -, -, -, -, -, -, e50, e51, -⟩ := idx_facts t
  unfold iblk1
  rw [View.read_apply]
  show V c main_v30 _ = V c main_v30 _
  congr 1
  funext a
  apply Fin.ext
  match a with
  | ⟨0, _⟩ => show win1_5.index t 0 * 1 + 1 * 0 = 0; rw [e50]
  | ⟨1, _⟩ => show win1_5.index t 1 * 42 + 1 * q.val = q.val; rw [e51]; omega

/-- WHAT POINT `t` WRITES BACK is block `t` of the layer applied to the arrays the region is entered with. -/
theorem flushed_eq (c : Dev nD) (t : Fin cfg1.N) :
    (dat1 V c).flushed 6 t = ((cfg1.win 6).blk t).view.read (Elt Ideal)
      (out42 (F := Ideal) (V c main_v29) (V c main_v7) (V c main_v19) (V c main_arg5) (V c main_arg6) (V c main_v30)) := by
  show (cfg1.win 6).cut (grid1.coords t) ((dat1 V c).after 6 t) = _
  rw [after1_6]
  unfold out1_6
  rw [View.canon_unit_zero hz]
  simp only [View.ld_unit_zero (S := S5000x1) hz, View.ld_unit_zero (S := S5000x117) hz, View.ld_unit_zero (S := S117x42) hz, View.ld_unit_zero (S := S1x42) hz]
  funext j
  obtain ⟨p, q, rfl⟩ : ∃ (p : Fin 5000) (q : Fin 42), j = ix2 p q := ⟨j 0, j 1, eq_ix2 j⟩
  refine (pay_at (iblk1 V c 1 t) (iblk1 V c 0 t) (iblk1 V c 3 t) (iblk1 V c 2 t) (iblk1 V c 4 t) (iblk1 V c 5 t) p q).trans ?_
  rw [View.read_apply]
  have hemb : ((cfg1.win 6).blk t).view.emb (ix2 p q) = (ix2 (row t p) q : S50000x42.Idx) := by
    obtain ⟨-, -, -, -, -, -, -, -, -, -, -, -, e60, e61⟩ := idx_facts t
    funext a
    apply Fin.ext
    match a with
    | ⟨0, _⟩ => show win1_6.index t 0 * 5000 + 1 * p.val = t.val * 5000 + p.val; rw [e60]; omega
    | ⟨1, _⟩ => show win1_6.index t 1 * 42 + 1 * q.val = q.val; rw [e61]; omega
  rw [hemb]
  refine Eq.trans ?_ (out42_at (V c main_v29) (V c main_v7) (V c main_v19) (V c main_arg5) (V c main_arg6) (V c main_v30) (row t p) q).symm
  simp only [iblk_A V c t, iblk_D V c t, iblk_X V c t, iblk_Wl V c t, iblk_Wr V c t, iblk_b V c t]

/-- The ten blocks tile the result: row `r` is in block `r / 5000`. -/
theorem covered (i : S50000x42.Idx) :
    ∃ t : Fin cfg1.N, (cfg1.win 6).flush t = true ∧ i ∈ ((cfg1.win 6).blk t).view.set := by
  have h0 : (i 0).val < 50000 := (i 0).isLt
  have h1 : (i 1).val < 42 := (i 1).isLt
  let t : Fin cfg1.N := ⟨(i 0).val / 5000, by rw [show cfg1.N = 10 from N_1]; omega⟩
  obtain ⟨-, -, -, -, -, -, -, -, -, -, -, -, e60, e61⟩ := idx_facts t
  refine ⟨t, flush1_6 t, ?_⟩
  show i ∈ ((View.whole main_v31).slice (win1_6.rect t)).set
  rw [View.set_slice_whole, Rect.mem_set_unit]
  intro a
  match a with
  | ⟨0, _⟩ => show win1_6.index t 0 * 5000 ≤ (i 0).val ∧ (i 0).val < win1_6.index t 0 * 5000 + 5000
              rw [e60]; show (i 0).val / 5000 * 5000 ≤ (i 0).val ∧ (i 0).val < (i 0).val / 5000 * 5000 + 5000; omega
  | ⟨1, _⟩ => show win1_6.index t 1 * 42 ≤ (i 1).val ∧ (i 1).val < win1_6.index t 1 * 42 + 42
              rw [e61]; omega

/-- THE RESULT ARRAY after the region: the layer of the arrays the region is entered with. -/
theorem final (c : Dev nD) :
    (dat1 V c).arrAt 6 cfg1.N = out42 (F := Ideal) (V c main_v29) (V c main_v7) (V c main_v19) (V c main_arg5) (V c main_arg6) (V c main_v30) :=
  (dat1 V c).arrAt_eq_of_cover 6 _ (fun t _ => flushed_eq V c t) covered

end Cert.KernelIdeal.Region1

end
-- ==== Proof.Layer24.lean ====
/-
  The reference's layer 42 → 24 on all 50000 nodes, read entry by entry.

  `lin24` is the affine part as the reference writes it: divide the neighbour sums by the clipped in-degree
  (a column, broadcast along the features), two matrix products, the bias row broadcast down the nodes.
  Read at node `p` and feature `q` it is the entry `sageLin` of row `p` of the operands and column `q` of the
  weights.
-/
import proofs.«150746_j69475390980563_1_alg».proof.Proof.Gen.ReferenceIdeal
import proofs.«150746_j69475390980563_1_alg».proof.Proof.SageCell
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx Cert.ReferenceIdeal Cert.ReferenceIdeal.Gen

section Defs
variable {F : FTy → Type} [FloatOps F]

/-- The affine part of the layer on whole arrays: neighbour sums `A`, in-degrees `D`, own features `X`, the two
    weight matrices and the bias as a one-row array. -/
def lin24 (A : FVec F S50000x42 .f32) (D : FVec F S50000x1 .f32) (X : FVec F S50000x42 .f32)
    (Wl Wr : FVec F S42x24 .f32) (brow : FVec F S1x24 .f32) : FVec F S50000x24 .f32 :=
  addf (addf (Host.dotGeneral dot_S50000x42_S42x24_S50000x24_1_0_0_1_n_n none (Host.divf A (broadcastInDim S50000x42 ![0, 1] bcast_S50000x1_S50000x42_0_1 (maximumf D (broadcastInDim S50000x1 ![] bcast_S_S50000x1 (constant S_ .f32 0x3F800000#32))))) Wl) (Host.dotGeneral dot_S50000x42_S42x24_S50000x24_1_0_0_1_n_n none X Wr)) (broadcastInDim S50000x24 ![0, 1] bcast_S1x24_S50000x24_0_1 brow)

end Defs

/-! ## The operand indices of the product at an output entry -/

theorem dot24_lhs0 (i : S50000x24.Idx) (c : dot_S50000x42_S42x24_S50000x24_1_0_0_1_n_n.contr.Idx) :
    (dot_S50000x42_S42x24_S50000x24_1_0_0_1_n_n.lhsIdx i c 0).val = (i 0).val := by
  unfold DotDims.lhsIdx
  rw [dif_neg (show ¬(0 : Fin S50000x42.rank) ∈ dot_S50000x42_S42x24_S50000x24_1_0_0_1_n_n.lhsBatch by decide), dif_pos (show (0 : Fin S50000x42.rank) ∈ dot_S50000x42_S42x24_S50000x24_1_0_0_1_n_n.lhsNonContracting by decide)]
  rfl
theorem dot24_lhs1 (i : S50000x24.Idx) (c : dot_S50000x42_S42x24_S50000x24_1_0_0_1_n_n.contr.Idx) :
    (dot_S50000x42_S42x24_S50000x24_1_0_0_1_n_n.lhsIdx i c 1).val = (c ⟨0, by decide⟩).val :=
  dot_S50000x42_S42x24_S50000x24_1_0_0_1_n_n.lhsIdx_val_of_single rfl i c
theorem dot24_rhs0 (i : S50000x24.Idx) (c : dot_S50000x42_S42x24_S50000x24_1_0_0_1_n_n.contr.Idx) :
    (dot_S50000x42_S42x24_S50000x24_1_0_0_1_n_n.rhsIdx i c 0).val = (c ⟨0, by decide⟩).val :=
  dot_S50000x42_S42x24_S50000x24_1_0_0_1_n_n.rhsIdx_val_of_single rfl i c
theorem dot24_rhs1 (i : S50000x24.Idx) (c : dot_S50000x42_S42x24_S50000x24_1_0_0_1_n_n.contr.Idx) :
    (dot_S50000x42_S42x24_S50000x24_1_0_0_1_n_n.rhsIdx i c 1).val = (i 1).val := by
  unfold DotDims.rhsIdx
  rw [dif_neg (show ¬(1 : Fin S42x24.rank) ∈ dot_S50000x42_S42x24_S50000x24_1_0_0_1_n_n.rhsBatch by decide), dif_pos (show (1 : Fin S42x24.rank) ∈ dot_S50000x42_S42x24_S50000x24_1_0_0_1_n_n.rhsNonContracting by decide)]
  rfl

/-- The host's matrix product at entry (p, q): the sum over the 42 shared features of row `p` times column `q`. -/
theorem dot24_at (L : FVec Ideal S50000x42 .f32) (R : FVec Ideal S42x24 .f32) (p : Fin 50000) (q : Fin 24) :
    Host.dotGeneral dot_S50000x42_S42x24_S50000x24_1_0_0_1_n_n none L R (ix2 p q) = ∑ k : Fin 42, L (ix2 p k) * R (ix2 k q) := by
  simp only [Host.dotGeneral]
  rw [Ideal.dotGeneral_apply, ← Equiv.sum_comp (contrEquiv1 dot_S50000x42_S42x24_S50000x24_1_0_0_1_n_n 42 rfl rfl).symm]
  refine Finset.sum_congr rfl fun k _ => ?_
  have hk := contrEquiv1_symm_val dot_S50000x42_S42x24_S50000x24_1_0_0_1_n_n 42 rfl rfl k
  have el : dot_S50000x42_S42x24_S50000x24_1_0_0_1_n_n.lhsIdx (ix2 p q) ((contrEquiv1 dot_S50000x42_S42x24_S50000x24_1_0_0_1_n_n 42 rfl rfl).symm k) = ix2 p k := funext fun a => Fin.ext (by
    match a with
    | ⟨0, _⟩ => exact dot24_lhs0 _ _
    | ⟨1, _⟩ => exact (dot24_lhs1 _ _).trans hk)
  have er : dot_S50000x42_S42x24_S50000x24_1_0_0_1_n_n.rhsIdx (ix2 p q) ((contrEquiv1 dot_S50000x42_S42x24_S50000x24_1_0_0_1_n_n 42 rfl rfl).symm k) = ix2 k q := funext fun a => Fin.ext (by
    match a with
    | ⟨0, _⟩ => exact (dot24_rhs0 _ _).trans hk
    | ⟨1, _⟩ => exact dot24_rhs1 _ _)
  rw [el, er]

/-! ## The broadcasts at an entry -/

/-- The clipped in-degree column, broadcast along the 42 features, read at (p, k): the column's entry at node `p`. -/
theorem degcol42_at (D : FVec Ideal S50000x1 .f32) (p : Fin 50000) (k : Fin 42) :
    broadcastInDim S50000x42 ![0, 1] bcast_S50000x1_S50000x42_0_1 (maximumf D (broadcastInDim S50000x1 ![] bcast_S_S50000x1 (constant S_ .f32 0x3F800000#32))) (ix2 p k)
      = max (D (ix2 p 0)) (Ideal.ofBits .f32 0x3F800000#32) := by
  generalize hy : maximumf D (broadcastInDim S50000x1 ![] bcast_S_S50000x1 (constant S_ .f32 0x3F800000#32)) = y
  rw [broadcastInDim_apply _ bcast_S50000x1_S50000x42_0_1 y (ix2 p k) (ix2 p 0) (fun a => match a with
    | ⟨0, _⟩ => by show p.val = if (50000 : Nat) = 1 then 0 else p.val; rw [if_neg (by decide)]
    | ⟨1, _⟩ => by show 0 = if (1 : Nat) = 1 then 0 else k.val; rw [if_pos rfl])]
  subst hy
  show max (D (ix2 p 0)) (broadcastInDim S50000x1 ![] bcast_S_S50000x1 (constant (F := Ideal) S_ .f32 0x3F800000#32) (ix2 p 0)) = _
  rw [broadcastInDim_apply _ bcast_S_S50000x1 (constant (F := Ideal) S_ .f32 0x3F800000#32) (ix2 p 0) ix0 (fun a => a.elim0)]
  rfl

/-- The bias row broadcast down the nodes, read at (p, q): the row's entry at feature `q`. -/
theorem biasrow24_at (brow : FVec Ideal S1x24 .f32) (p : Fin 50000) (q : Fin 24) :
    broadcastInDim S50000x24 ![0, 1] bcast_S1x24_S50000x24_0_1 brow (ix2 p q) = brow (ix2 0 q) :=
  broadcastInDim_apply _ bcast_S1x24_S50000x24_0_1 brow (ix2 p q) (ix2 0 q) (fun a => match a with
    | ⟨0, _⟩ => by show 0 = if (1 : Nat) = 1 then 0 else p.val; rw [if_pos rfl]
    | ⟨1, _⟩ => by show q.val = if (24 : Nat) = 1 then 0 else q.val; rw [if_neg (by decide)])

/-! ## The layer at an entry -/

theorem lin24_at (A : FVec Ideal S50000x42 .f32) (D : FVec Ideal S50000x1 .f32) (X : FVec Ideal S50000x42 .f32)
    (Wl Wr : FVec Ideal S42x24 .f32) (brow : FVec Ideal S1x24 .f32) (p : Fin 50000) (q : Fin 24) :
    lin24 A D X Wl Wr brow (ix2 p q)
      = sageLin 42 (fun k => A (ix2 p k)) (D (ix2 p 0)) (fun k => X (ix2 p k)) (fun k => Wl (ix2 k q)) (fun k => Wr (ix2 k q)) (brow (ix2 0 q)) := by
  unfold lin24 sageLin
  rw [addf_apply, addf_apply, dot24_at, dot24_at, biasrow24_at]
  refine congrArg₂ (· + ·) (congrArg₂ (· + ·) (Finset.sum_congr rfl fun k _ => ?_) rfl) rfl
  show Ideal.div (A (ix2 p k)) _ * Wl (ix2 k q) = _
  rw [degcol42_at D p k]

end Cert.Sage

end
-- ==== Proof.Region2.lean ====
/-
  What the third kernel leaves in its result array (the mean head): the reference's unrectified layer 42 → 24 of
  the arrays it is entered with.

  The kernel walks the 50000 nodes in ten blocks of 5000 rows. At a block it loads 5000 rows of the neighbour sums,
  of the in-degrees and of the features, the two whole weight matrices and the bias row, and stores 5000 result
  rows. Entry (p, q) of a stored block is the entry `sageLin` of row `p` of the loaded rows and column `q` of the
  weights (`pay_at`); row `p` of block `t` is row `5000 t + p` of the arrays, so the stored block is block `t` of the
  reference's layer applied to the whole arrays (`flushed_eq`); the ten blocks tile the result (`covered`), so the
  result array ends holding that layer (`final`).
-/
import proofs.«150746_j69475390980563_1_alg».proof.Proof.Gen.KernelIdeal.Frame
import proofs.«150746_j69475390980563_1_alg».proof.Proof.Layer24
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Sage

theorem hz : (![0, 0] : Fin 2 → Nat) = fun _ => 0 := funext fun a => by fin_cases a <;> rfl

/-! ## The block product at an entry -/

theorem mm_lhs0 (i : S5000x24.Idx) (c : dot_S5000x42_S42x24_S5000x24_1_0_0_1_n_n.contr.Idx) :
    (dot_S5000x42_S42x24_S5000x24_1_0_0_1_n_n.lhsIdx i c 0).val = (i 0).val := by
  unfold DotDims.lhsIdx
  rw [dif_neg (show ¬(0 : Fin S5000x42.rank) ∈ dot_S5000x42_S42x24_S5000x24_1_0_0_1_n_n.lhsBatch by decide), dif_pos (show (0 : Fin S5000x42.rank) ∈ dot_S5000x42_S42x24_S5000x24_1_0_0_1_n_n.lhsNonContracting by decide)]
  rfl
theorem mm_lhs1 (i : S5000x24.Idx) (c : dot_S5000x42_S42x24_S5000x24_1_0_0_1_n_n.contr.Idx) :
    (dot_S5000x42_S42x24_S5000x24_1_0_0_1_n_n.lhsIdx i c 1).val = (c ⟨0, by decide⟩).val :=
  dot_S5000x42_S42x24_S5000x24_1_0_0_1_n_n.lhsIdx_val_of_single rfl i c
theorem mm_rhs0 (i : S5000x24.Idx) (c : dot_S5000x42_S42x24_S5000x24_1_0_0_1_n_n.contr.Idx) :
    (dot_S5000x42_S42x24_S5000x24_1_0_0_1_n_n.rhsIdx i c 0).val = (c ⟨0, by decide⟩).val :=
  dot_S5000x42_S42x24_S5000x24_1_0_0_1_n_n.rhsIdx_val_of_single rfl i c
theorem mm_rhs1 (i : S5000x24.Idx) (c : dot_S5000x42_S42x24_S5000x24_1_0_0_1_n_n.contr.Idx) :
    (dot_S5000x42_S42x24_S5000x24_1_0_0_1_n_n.rhsIdx i c 1).val = (i 1).val := by
  unfold DotDims.rhsIdx
  rw [dif_neg (show ¬(1 : Fin S42x24.rank) ∈ dot_S5000x42_S42x24_S5000x24_1_0_0_1_n_n.rhsBatch by decide), dif_pos (show (1 : Fin S42x24.rank) ∈ dot_S5000x42_S42x24_S5000x24_1_0_0_1_n_n.rhsNonContracting by decide)]
  rfl

/-- The kernel's matrix product into a zero accumulator at entry (p, q) of a block: row `p` times column `q`. -/
theorem mm_at (L : FVec Ideal S5000x42 .f32) (R : FVec Ideal S42x24 .f32) (p : Fin 5000) (q : Fin 24) :
    matmul dot_S5000x42_S42x24_S5000x24_1_0_0_1_n_n none L R (constant S5000x24 .f32 0x00000000#32) (ix2 p q)
      = ∑ k : Fin 42, L (ix2 p k) * R (ix2 k q) := by
  simp only [matmul]
  rw [Ideal.matmul_constant_zero_apply, ← Equiv.sum_comp (contrEquiv1 dot_S5000x42_S42x24_S5000x24_1_0_0_1_n_n 42 rfl rfl).symm]
  refine Finset.sum_congr rfl fun k _ => ?_
  have hk := contrEquiv1_symm_val dot_S5000x42_S42x24_S5000x24_1_0_0_1_n_n 42 rfl rfl k
  have el : dot_S5000x42_S42x24_S5000x24_1_0_0_1_n_n.lhsIdx (ix2 p q) ((contrEquiv1 dot_S5000x42_S42x24_S5000x24_1_0_0_1_n_n 42 rfl rfl).symm k) = ix2 p k := funext fun a => Fin.ext (by
    match a with
    | ⟨0, _⟩ => exact mm_lhs0 _ _
    | ⟨1, _⟩ => exact (mm_lhs1 _ _).trans hk)
  have er : dot_S5000x42_S42x24_S5000x24_1_0_0_1_n_n.rhsIdx (ix2 p q) ((contrEquiv1 dot_S5000x42_S42x24_S5000x24_1_0_0_1_n_n 42 rfl rfl).symm k) = ix2 k q := funext fun a => Fin.ext (by
    match a with
    | ⟨0, _⟩ => exact (mm_rhs0 _ _).trans hk
    | ⟨1, _⟩ => exact mm_rhs1 _ _)
  rw [el, er]

/-! ## The body's broadcasts at an entry -/

/-- The clipped in-degree column of a block, broadcast along the features, read at (p, k). -/
theorem degcol_at (v0 : FVec Ideal S5000x1 .f32) (p : Fin 5000) (k : Fin 42) :
    broadcastTo S5000x42 (maximumf v0 (broadcast S5000x1 (Scalar.ofBits .f32 0x3F800000#32))) broadcasts_S5000x1_S5000x42 (ix2 p k)
      = max (v0 (ix2 p 0)) (Ideal.ofBits .f32 0x3F800000#32) := by
  generalize hy : maximumf v0 (broadcast S5000x1 (Scalar.ofBits (F := Ideal) .f32 0x3F800000#32)) = y
  rw [broadcastTo_apply y broadcasts_S5000x1_S5000x42 (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])]
  subst hy
  rfl

/-! ## The stored block at an entry -/

theorem pay_at (v0 : Vec Ideal S5000x1 .f32) (v4 : Vec Ideal S5000x42 .f32) (v8 : Vec Ideal S42x24 .f32)
    (v10 : Vec Ideal S5000x42 .f32) (v11 : Vec Ideal S42x24 .f32) (v14 : Vec Ideal S1x24 .f32) (p : Fin 5000) (q : Fin 24) :
    k2_pay1 v0 v4 v8 v10 v11 v14 (ix2 p q)
      = sageLin 42 (fun k => v4 (ix2 p k)) (v0 (ix2 p 0)) (fun k => v10 (ix2 p k)) (fun k => v8 (ix2 k q)) (fun k => v11 (ix2 k q)) (v14 (ix2 0 q)) := by
  unfold k2_pay1 sageLin
  rw [addf_apply, addf_apply, mm_at, mm_at]
  simp only [shapeCast_self]
  rw [broadcastTo_1b_ab_apply v14 broadcasts_S1x24_S5000x24 p q]
  refine congrArg₂ (· + ·) (congrArg₂ (· + ·) (Finset.sum_congr rfl fun k _ => ?_) rfl) rfl
  show Ideal.div (v4 (ix2 p k)) _ * v8 (ix2 k q) = _
  rw [degcol_at v0 p k]

/-! ## A stored block is a block of the layer -/

variable (V : (c : Dev nD) → (b : Ref sig .tc) → Buf (Elt Ideal) ((c : Thread nD τ).loc b))

/-- The printed index maps over the grid: the row windows sit at block `t` of the rows, the weights and the bias at
    their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of block `t` as a row of the whole arrays. -/
def row (t : Fin cfg2.N) (p : Fin 5000) : Fin 50000 :=
  ⟨t.val * 5000 + p.val, by have h : t.val < 10 := lt_of_lt_of_eq t.isLt N_2; have := p.isLt; omega⟩

theorem iblk_A (c : Dev nD) (t : Fin cfg2.N) (p : Fin 5000) (k : Fin 42) :
    (iblk2 V c 0 t : Vec Ideal S5000x42 .f32) (ix2 p k) = (V c main_v41 : S50000x42.Idx → Ideal .f32) (ix2 (row t p) k) := by
  obtain ⟨e00, e01, -⟩ := idx_facts t
  unfold iblk2
  rw [View.read_apply]
  show V c main_v41 _ = V c main_v41 _
  congr 1
  funext a
  apply Fin.ext
  match a with
  | ⟨0, _⟩ => show win2_0.index t 0 * 5000 + 1 * p.val = t.val * 5000 + p.val; rw [e00]; omega
  | ⟨1, _⟩ => show win2_0.index t 1 * 42 + 1 * k.val = k.val; rw [e01]; omega

theorem iblk_D (c : Dev nD) (t : Fin cfg2.N) (p : Fin 5000) :
    (iblk2 V c 1 t : Vec Ideal S5000x1 .f32) (ix2 p 0) = (V c main_v7 : S50000x1.Idx → Ideal .f32) (ix2 (row t p) 0) := by
  obtain ⟨-, -, e10, e11, -⟩ := idx_facts t
  unfold iblk2
  rw [View.read_apply]
  show V c main_v7 _ = V c main_v7 _
  congr 1
  funext a
  apply Fin.ext
  match a with
  | ⟨0, _⟩ => show win2_1.index t 0 * 5000 + 1 * p.val = t.val * 5000 + p.val; rw [e10]; omega
  | ⟨1, _⟩ => show win2_1.index t 1 * 1 + 1 * 0 = 0; rw [e11]

theorem iblk_X (c : Dev nD) (t : Fin cfg2.N) (p : Fin 5000) (k : Fin 42) :
    (iblk2 V c 2 t : Vec Ideal S5000x42 .f32) (ix2 p k) = (V c main_v31 : S50000x42.Idx → Ideal .f32) (ix2 (row t p) k) := by
  obtain ⟨-, -, -, -, e20, e21, -⟩ := idx_facts t
  unfold iblk2
  rw [View.read_apply]
  show V c main_v31 _ = V c main_v31 _
  congr 1
  funext a
  apply Fin.ext
  match a with
  | ⟨0, _⟩ => show win2_2.index t 0 * 5000 + 1 * p.val = t.val * 5000 + p.val; rw [e20]; omega
  | ⟨1, _⟩ => show win2_2.index t 1 * 42 + 1 * k.val = k.val; rw [e21]; omega

theorem iblk_Wl (c : Dev nD) (t : Fin cfg2.N) (k : Fin 42) (q : Fin 24) :
    (iblk2 V c 3 t : Vec Ideal S42x24 .f32) (ix2 k q) = (V c main_arg8 : S42x24.Idx → Ideal .f32) (ix2 k q) := by
  obtain ⟨-, -, -, -, -, -, e30, e31, -⟩ := idx_facts t
  unfold iblk2
  rw [View.read_apply]
  show V c main_arg8 _ = V c main_arg8 _
  congr 1
  funext a
  apply Fin.ext
  match a with
  | ⟨0, _⟩ => show win2_3.index t 0 * 42 + 1 * k.val = k.val; rw [e30]; omega
  | ⟨1, _⟩ => show win2_3.index t 1 * 24 + 1 * q.val = q.val; rw [e31]; omega

theorem iblk_Wr (c : Dev nD) (t : Fin cfg2.N) (k : Fin 42) (q : Fin 24) :
    (iblk2 V c 4 t : Vec Ideal S42x24 .f32) (ix2 k q) = (V c main_arg9 : S42x24.Idx → Ideal .f32) (ix2 k q) := by
  obtain ⟨-, -, -, -, -, -, -, -, e40, e41, -⟩ := idx_facts t
  unfold iblk2
  rw [View.read_apply]
  show V c main_arg9 _ = V c main_arg9 _
  congr 1
  funext a
  apply Fin.ext
  match a with
  | ⟨0, _⟩ => show win2_4.index t 0 * 42 + 1 * k.val = k.val; rw [e40]; omega
  | ⟨1, _⟩ => show win2_4.index t 1 * 24 + 1 * q.val = q.val; rw [e41]; omega

theorem iblk_b (c : Dev nD) (t : Fin cfg2.N) (q : Fin 24) :
    (iblk2 V c 5 t : Vec Ideal S1x24 .f32) (ix2 0 q) = (V c main_v42 : S1x24.Idx → Ideal .f32) (ix2 0 q) := by
  obtain ⟨-, -, -, -, -, -, -, -, -, -, e50, e51, -⟩ := idx_facts t
  unfold iblk2
  rw [View.read_apply]
  show V c main_v42 _ = V c main_v42 _
  congr 1
  funext a
  apply Fin.ext
  match a with
  | ⟨0, _⟩ => show win2_5.index t 0 * 1 + 1 * 0 = 0; rw [e50]
  | ⟨1, _⟩ => show win2_5.index t 1 * 24 + 1 * q.val = q.val; rw [e51]; omega

/-- WHAT POINT `t` WRITES BACK is block `t` of the layer applied to the arrays the region is entered with. -/
theorem flushed_eq (c : Dev nD) (t : Fin cfg2.N) :
    (dat2 V c).flushed 6 t = ((cfg2.win 6).blk t).view.read (Elt Ideal)
      (lin24 (F := Ideal) (V c main_v41) (V c main_v7) (V c main_v31) (V c main_arg8) (V c main_arg9) (V c main_v42)) := by
  show (cfg2.win 6).cut (grid2.coords t) ((dat2 V c).after 6 t) = _
  rw [after2_6]
  unfold out2_6
  rw [View.canon_unit_zero hz]
  simp only [View.ld_unit_zero (S := S5000x1) hz, View.ld_unit_zero (S := S5000x42) hz, View.ld_unit_zero (S := S42x24) hz, View.ld_unit_zero (S := S1x24) hz]
  funext j
  obtain ⟨p, q, rfl⟩ : ∃ (p : Fin 5000) (q : Fin 24), j = ix2 p q := ⟨j 0, j 1, eq_ix2 j⟩
  refine (pay_at (iblk2 V c 1 t) (iblk2 V c 0 t) (iblk2 V c 3 t) (iblk2 V c 2 t) (iblk2 V c 4 t) (iblk2 V c 5 t) p q).trans ?_
  rw [View.read_apply]
  have hemb : ((cfg2.win 6).blk t).view.emb (ix2 p q) = (ix2 (row t p) q : S50000x24.Idx) := by
    obtain ⟨-, -, -, -, -, -, -, -, -, -, -, -, e60, e61⟩ := idx_facts t
    funext a
    apply Fin.ext
    match a with
    | ⟨0, _⟩ => show win2_6.index t 0 * 5000 + 1 * p.val = t.val * 5000 + p.val; rw [e60]; omega
    | ⟨1, _⟩ => show win2_6.index t 1 * 24 + 1 * q.val = q.val; rw [e61]; omega
  rw [hemb]
  refine Eq.trans ?_ (lin24_at (V c main_v41) (V c main_v7) (V c main_v31) (V c main_arg8) (V c main_arg9) (V c main_v42) (row t p) q).symm
  simp only [iblk_A V c t, iblk_D V c t, iblk_X V c t, iblk_Wl V c t, iblk_Wr V c t, iblk_b V c t]

/-- The ten blocks tile the result: row `r` is in block `r / 5000`. -/
theorem covered (i : S50000x24.Idx) :
    ∃ t : Fin cfg2.N, (cfg2.win 6).flush t = true ∧ i ∈ ((cfg2.win 6).blk t).view.set := by
  have h0 : (i 0).val < 50000 := (i 0).isLt
  have h1 : (i 1).val < 24 := (i 1).isLt
  let t : Fin cfg2.N := ⟨(i 0).val / 5000, by rw [show cfg2.N = 10 from N_2]; omega⟩
  obtain ⟨-, -, -, -, -, -, -, -, -, -, -, -, e60, e61⟩ := idx_facts t
  refine ⟨t, flush2_6 t, ?_⟩
  show i ∈ ((View.whole main_v43).slice (win2_6.rect t)).set
  rw [View.set_slice_whole, Rect.mem_set_unit]
  intro a
  match a with
  | ⟨0, _⟩ => show win2_6.index t 0 * 5000 ≤ (i 0).val ∧ (i 0).val < win2_6.index t 0 * 5000 + 5000
              rw [e60]; show (i 0).val / 5000 * 5000 ≤ (i 0).val ∧ (i 0).val < (i 0).val / 5000 * 5000 + 5000; omega
  | ⟨1, _⟩ => show win2_6.index t 1 * 24 ≤ (i 1).val ∧ (i 1).val < win2_6.index t 1 * 24 + 24
              rw [e61]; omega

/-- THE RESULT ARRAY after the region: the layer of the arrays the region is entered with. -/
theorem final (c : Dev nD) :
    (dat2 V c).arrAt 6 cfg2.N = lin24 (F := Ideal) (V c main_v41) (V c main_v7) (V c main_v31) (V c main_arg8) (V c main_arg9) (V c main_v42) :=
  (dat2 V c).arrAt_eq_of_cover 6 _ (fun t _ => flushed_eq V c t) covered

end Cert.KernelIdeal.Region2

end
-- ==== Proof.Region3.lean ====
/-
  What the fourth kernel leaves in its result array (the log-variance head): the reference's unrectified layer 42 → 24 of
  the arrays it is entered with.

  The kernel walks the 50000 nodes in ten blocks of 5000 rows. At a block it loads 5000 rows of the neighbour sums,
  of the in-degrees and of the features, the two whole weight matrices and the bias row, and stores 5000 result
  rows. Entry (p, q) of a stored block is the entry `sageLin` of row `p` of the loaded rows and column `q` of the
  weights (`pay_at`); row `p` of block `t` is row `5000 t + p` of the arrays, so the stored block is block `t` of the
  reference's layer applied to the whole arrays (`flushed_eq`); the ten blocks tile the result (`covered`), so the
  result array ends holding that layer (`final`).
-/
import proofs.«150746_j69475390980563_1_alg».proof.Proof.Gen.KernelIdeal.Frame
import proofs.«150746_j69475390980563_1_alg».proof.Proof.Layer24
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Sage

theorem hz : (![0, 0] : Fin 2 → Nat) = fun _ => 0 := funext fun a => by fin_cases a <;> rfl

/-! ## The block product at an entry -/

theorem mm_lhs0 (i : S5000x24.Idx) (c : dot_S5000x42_S42x24_S5000x24_1_0_0_1_n_n.contr.Idx) :
    (dot_S5000x42_S42x24_S5000x24_1_0_0_1_n_n.lhsIdx i c 0).val = (i 0).val := by
  unfold DotDims.lhsIdx
  rw [dif_neg (show ¬(0 : Fin S5000x42.rank) ∈ dot_S5000x42_S42x24_S5000x24_1_0_0_1_n_n.lhsBatch by decide), dif_pos (show (0 : Fin S5000x42.rank) ∈ dot_S5000x42_S42x24_S5000x24_1_0_0_1_n_n.lhsNonContracting by decide)]
  rfl
theorem mm_lhs1 (i : S5000x24.Idx) (c : dot_S5000x42_S42x24_S5000x24_1_0_0_1_n_n.contr.Idx) :
    (dot_S5000x42_S42x24_S5000x24_1_0_0_1_n_n.lhsIdx i c 1).val = (c ⟨0, by decide⟩).val :=
  dot_S5000x42_S42x24_S5000x24_1_0_0_1_n_n.lhsIdx_val_of_single rfl i c
theorem mm_rhs0 (i : S5000x24.Idx) (c : dot_S5000x42_S42x24_S5000x24_1_0_0_1_n_n.contr.Idx) :
    (dot_S5000x42_S42x24_S5000x24_1_0_0_1_n_n.rhsIdx i c 0).val = (c ⟨0, by decide⟩).val :=
  dot_S5000x42_S42x24_S5000x24_1_0_0_1_n_n.rhsIdx_val_of_single rfl i c
theorem mm_rhs1 (i : S5000x24.Idx) (c : dot_S5000x42_S42x24_S5000x24_1_0_0_1_n_n.contr.Idx) :
    (dot_S5000x42_S42x24_S5000x24_1_0_0_1_n_n.rhsIdx i c 1).val = (i 1).val := by
  unfold DotDims.rhsIdx
  rw [dif_neg (show ¬(1 : Fin S42x24.rank) ∈ dot_S5000x42_S42x24_S5000x24_1_0_0_1_n_n.rhsBatch by decide), dif_pos (show (1 : Fin S42x24.rank) ∈ dot_S5000x42_S42x24_S5000x24_1_0_0_1_n_n.rhsNonContracting by decide)]
  rfl

/-- The kernel's matrix product into a zero accumulator at entry (p, q) of a block: row `p` times column `q`. -/
theorem mm_at (L : FVec Ideal S5000x42 .f32) (R : FVec Ideal S42x24 .f32) (p : Fin 5000) (q : Fin 24) :
    matmul dot_S5000x42_S42x24_S5000x24_1_0_0_1_n_n none L R (constant S5000x24 .f32 0x00000000#32) (ix2 p q)
      = ∑ k : Fin 42, L (ix2 p k) * R (ix2 k q) := by
  simp only [matmul]
  rw [Ideal.matmul_constant_zero_apply, ← Equiv.sum_comp (contrEquiv1 dot_S5000x42_S42x24_S5000x24_1_0_0_1_n_n 42 rfl rfl).symm]
  refine Finset.sum_congr rfl fun k _ => ?_
  have hk := contrEquiv1_symm_val dot_S5000x42_S42x24_S5000x24_1_0_0_1_n_n 42 rfl rfl k
  have el : dot_S5000x42_S42x24_S5000x24_1_0_0_1_n_n.lhsIdx (ix2 p q) ((contrEquiv1 dot_S5000x42_S42x24_S5000x24_1_0_0_1_n_n 42 rfl rfl).symm k) = ix2 p k := funext fun a => Fin.ext (by
    match a with
    | ⟨0, _⟩ => exact mm_lhs0 _ _
    | ⟨1, _⟩ => exact (mm_lhs1 _ _).trans hk)
  have er : dot_S5000x42_S42x24_S5000x24_1_0_0_1_n_n.rhsIdx (ix2 p q) ((contrEquiv1 dot_S5000x42_S42x24_S5000x24_1_0_0_1_n_n 42 rfl rfl).symm k) = ix2 k q := funext fun a => Fin.ext (by
    match a with
    | ⟨0, _⟩ => exact (mm_rhs0 _ _).trans hk
    | ⟨1, _⟩ => exact mm_rhs1 _ _)
  rw [el, er]

/-! ## The body's broadcasts at an entry -/

/-- The clipped in-degree column of a block, broadcast along the features, read at (p, k). -/
theorem degcol_at (v0 : FVec Ideal S5000x1 .f32) (p : Fin 5000) (k : Fin 42) :
    broadcastTo S5000x42 (maximumf v0 (broadcast S5000x1 (Scalar.ofBits .f32 0x3F800000#32))) broadcasts_S5000x1_S5000x42 (ix2 p k)
      = max (v0 (ix2 p 0)) (Ideal.ofBits .f32 0x3F800000#32) := by
  generalize hy : maximumf v0 (broadcast S5000x1 (Scalar.ofBits (F := Ideal) .f32 0x3F800000#32)) = y
  rw [broadcastTo_apply y broadcasts_S5000x1_S5000x42 (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])]
  subst hy
  rfl

/-! ## The stored block at an entry -/

theorem pay_at (v0 : Vec Ideal S5000x1 .f32) (v4 : Vec Ideal S5000x42 .f32) (v8 : Vec Ideal S42x24 .f32)
    (v10 : Vec Ideal S5000x42 .f32) (v11 : Vec Ideal S42x24 .f32) (v14 : Vec Ideal S1x24 .f32) (p : Fin 5000) (q : Fin 24) :
    k3_pay1 v0 v4 v8 v10 v11 v14 (ix2 p q)
      = sageLin 42 (fun k => v4 (ix2 p k)) (v0 (ix2 p 0)) (fun k => v10 (ix2 p k)) (fun k => v8 (ix2 k q)) (fun k => v11 (ix2 k q)) (v14 (ix2 0 q)) := by
  unfold k3_pay1 sageLin
  rw [addf_apply, addf_apply, mm_at, mm_at]
  simp only [shapeCast_self]
  rw [broadcastTo_1b_ab_apply v14 broadcasts_S1x24_S5000x24 p q]
  refine congrArg₂ (· + ·) (congrArg₂ (· + ·) (Finset.sum_congr rfl fun k _ => ?_) rfl) rfl
  show Ideal.div (v4 (ix2 p k)) _ * v8 (ix2 k q) = _
  rw [degcol_at v0 p k]

/-! ## A stored block is a block of the layer -/

variable (V : (c : Dev nD) → (b : Ref sig .tc) → Buf (Elt Ideal) ((c : Thread nD τ).loc b))

/-- The printed index maps over the grid: the row windows sit at block `t` of the rows, the weights and the bias at
    their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `p` of block `t` as a row of the whole arrays. -/
def row (t : Fin cfg3.N) (p : Fin 5000) : Fin 50000 :=
  ⟨t.val * 5000 + p.val, by have h : t.val < 10 := lt_of_lt_of_eq t.isLt N_3; have := p.isLt; omega⟩

theorem iblk_A (c : Dev nD) (t : Fin cfg3.N) (p : Fin 5000) (k : Fin 42) :
    (iblk3 V c 0 t : Vec Ideal S5000x42 .f32) (ix2 p k) = (V c main_v41 : S50000x42.Idx → Ideal .f32) (ix2 (row t p) k) := by
  obtain ⟨e00, e01, -⟩ := idx_facts t
  unfold iblk3
  rw [View.read_apply]
  show V c main_v41 _ = V c main_v41 _
  congr 1
  funext a
  apply Fin.ext
  match a with
  | ⟨0, _⟩ => show win3_0.index t 0 * 5000 + 1 * p.val = t.val * 5000 + p.val; rw [e00]; omega
  | ⟨1, _⟩ => show win3_0.index t 1 * 42 + 1 * k.val = k.val; rw [e01]; omega

theorem iblk_D (c : Dev nD) (t : Fin cfg3.N) (p : Fin 5000) :
    (iblk3 V c 1 t : Vec Ideal S5000x1 .f32) (ix2 p 0) = (V c main_v7 : S50000x1.Idx → Ideal .f32) (ix2 (row t p) 0) := by
  obtain ⟨-, -, e10, e11, -⟩ := idx_facts t
  unfold iblk3
  rw [View.read_apply]
  show V c main_v7 _ = V c main_v7 _
  congr 1
  funext a
  apply Fin.ext
  match a with
  | ⟨0, _⟩ => show win3_1.index t 0 * 5000 + 1 * p.val = t.val * 5000 + p.val; rw [e10]; omega
  | ⟨1, _⟩ => show win3_1.index t 1 * 1 + 1 * 0 = 0; rw [e11]

theorem iblk_X (c : Dev nD) (t : Fin cfg3.N) (p : Fin 5000) (k : Fin 42) :
    (iblk3 V c 2 t : Vec Ideal S5000x42 .f32) (ix2 p k) = (V c main_v31 : S50000x42.Idx → Ideal .f32) (ix2 (row t p) k) := by
  obtain ⟨-, -, -, -, e20, e21, -⟩ := idx_facts t
  unfold iblk3
  rw [View.read_apply]
  show V c main_v31 _ = V c main_v31 _
  congr 1
  funext a
  apply Fin.ext
  match a with
  | ⟨0, _⟩ => show win3_2.index t 0 * 5000 + 1 * p.val = t.val * 5000 + p.val; rw [e20]; omega
  | ⟨1, _⟩ => show win3_2.index t 1 * 42 + 1 * k.val = k.val; rw [e21]; omega

theorem iblk_Wl (c : Dev nD) (t : Fin cfg3.N) (k : Fin 42) (q : Fin 24) :
    (iblk3 V c 3 t : Vec Ideal S42x24 .f32) (ix2 k q) = (V c main_arg11 : S42x24.Idx → Ideal .f32) (ix2 k q) := by
  obtain ⟨-, -, -, -, -, -, e30, e31, -⟩ := idx_facts t
  unfold iblk3
  rw [View.read_apply]
  show V c main_arg11 _ = V c main_arg11 _
  congr 1
  funext a
  apply Fin.ext
  match a with
  | ⟨0, _⟩ => show win3_3.index t 0 * 42 + 1 * k.val = k.val; rw [e30]; omega
  | ⟨1, _⟩ => show win3_3.index t 1 * 24 + 1 * q.val = q.val; rw [e31]; omega

theorem iblk_Wr (c : Dev nD) (t : Fin cfg3.N) (k : Fin 42) (q : Fin 24) :
    (iblk3 V c 4 t : Vec Ideal S42x24 .f32) (ix2 k q) = (V c main_arg12 : S42x24.Idx → Ideal .f32) (ix2 k q) := by
  obtain ⟨-, -, -, -, -, -, -, -, e40, e41, -⟩ := idx_facts t
  unfold iblk3
  rw [View.read_apply]
  show V c main_arg12 _ = V c main_arg12 _
  congr 1
  funext a
  apply Fin.ext
  match a with
  | ⟨0, _⟩ => show win3_4.index t 0 * 42 + 1 * k.val = k.val; rw [e40]; omega
  | ⟨1, _⟩ => show win3_4.index t 1 * 24 + 1 * q.val = q.val; rw [e41]; omega

theorem iblk_b (c : Dev nD) (t : Fin cfg3.N) (q : Fin 24) :
    (iblk3 V c 5 t : Vec Ideal S1x24 .f32) (ix2 0 q) = (V c main_v44 : S1x24.Idx → Ideal .f32) (ix2 0 q) := by
  obtain ⟨-, -, -, -, -, -, -, -, -, -, e50, e51, -⟩ := idx_facts t
  unfold iblk3
  rw [View.read_apply]
  show V c main_v44 _ = V c main_v44 _
  congr 1
  funext a
  apply Fin.ext
  match a with
  | ⟨0, _⟩ => show win3_5.index t 0 * 1 + 1 * 0 = 0; rw [e50]
  | ⟨1, _⟩ => show win3_5.index t 1 * 24 + 1 * q.val = q.val; rw [e51]; omega

/-- WHAT POINT `t` WRITES BACK is block `t` of the layer applied to the arrays the region is entered with. -/
theorem flushed_eq (c : Dev nD) (t : Fin cfg3.N) :
    (dat3 V c).flushed 6 t = ((cfg3.win 6).blk t).view.read (Elt Ideal)
      (lin24 (F := Ideal) (V c main_v41) (V c main_v7) (V c main_v31) (V c main_arg11) (V c main_arg12) (V c main_v44)) := by
  show (cfg3.win 6).cut (grid3.coords t) ((dat3 V c).after 6 t) = _
  rw [after3_6]
  unfold out3_6
  rw [View.canon_unit_zero hz]
  simp only [View.ld_unit_zero (S := S5000x1) hz, View.ld_unit_zero (S := S5000x42) hz, View.ld_unit_zero (S := S42x24) hz, View.ld_unit_zero (S := S1x24) hz]
  funext j
  obtain ⟨p, q, rfl⟩ : ∃ (p : Fin 5000) (q : Fin 24), j = ix2 p q := ⟨j 0, j 1, eq_ix2 j⟩
  refine (pay_at (iblk3 V c 1 t) (iblk3 V c 0 t) (iblk3 V c 3 t) (iblk3 V c 2 t) (iblk3 V c 4 t) (iblk3 V c 5 t) p q).trans ?_
  rw [View.read_apply]
  have hemb : ((cfg3.win 6).blk t).view.emb (ix2 p q) = (ix2 (row t p) q : S50000x24.Idx) := by
    obtain ⟨-, -, -, -, -, -, -, -, -, -, -, -, e60, e61⟩ := idx_facts t
    funext a
    apply Fin.ext
    match a with
    | ⟨0, _⟩ => show win3_6.index t 0 * 5000 + 1 * p.val = t.val * 5000 + p.val; rw [e60]; omega
    | ⟨1, _⟩ => show win3_6.index t 1 * 24 + 1 * q.val = q.val; rw [e61]; omega
  rw [hemb]
  refine Eq.trans ?_ (lin24_at (V c main_v41) (V c main_v7) (V c main_v31) (V c main_arg11) (V c main_arg12) (V c main_v44) (row t p) q).symm
  simp only [iblk_A V c t, iblk_D V c t, iblk_X V c t, iblk_Wl V c t, iblk_Wr V c t, iblk_b V c t]

/-- The ten blocks tile the result: row `r` is in block `r / 5000`. -/
theorem covered (i : S50000x24.Idx) :
    ∃ t : Fin cfg3.N, (cfg3.win 6).flush t = true ∧ i ∈ ((cfg3.win 6).blk t).view.set := by
  have h0 : (i 0).val < 50000 := (i 0).isLt
  have h1 : (i 1).val < 24 := (i 1).isLt
  let t : Fin cfg3.N := ⟨(i 0).val / 5000, by rw [show cfg3.N = 10 from N_3]; omega⟩
  obtain ⟨-, -, -, -, -, -, -, -, -, -, -, -, e60, e61⟩ := idx_facts t
  refine ⟨t, flush3_6 t, ?_⟩
  show i ∈ ((View.whole main_v45).slice (win3_6.rect t)).set
  rw [View.set_slice_whole, Rect.mem_set_unit]
  intro a
  match a with
  | ⟨0, _⟩ => show win3_6.index t 0 * 5000 ≤ (i 0).val ∧ (i 0).val < win3_6.index t 0 * 5000 + 5000
              rw [e60]; show (i 0).val / 5000 * 5000 ≤ (i 0).val ∧ (i 0).val < (i 0).val / 5000 * 5000 + 5000; omega
  | ⟨1, _⟩ => show win3_6.index t 1 * 24 ≤ (i 1).val ∧ (i 1).val < win3_6.index t 1 * 24 + 24
              rw [e61]; omega

/-- THE RESULT ARRAY after the region: the layer of the arrays the region is entered with. -/
theorem final (c : Dev nD) :
    (dat3 V c).arrAt 6 cfg3.N = lin24 (F := Ideal) (V c main_v41) (V c main_v7) (V c main_v31) (V c main_arg11) (V c main_arg12) (V c main_v44) :=
  (dat3 V c).arrAt_eq_of_cover 6 _ (fun t _ => flushed_eq V c t) covered

end Cert.KernelIdeal.Region3

end
-- ==== Proof.Net.lean ====
/-
  The whole network as one function of its arguments.

  Both programs build, from the edge list, the source and target node of every edge, the in-degree of every node
  (`deg`: a scatter-add of ones at the targets) and, for a feature array `h`, the neighbour sums (`agg…`: gather the
  rows of `h` at the sources, wrapped as the gather wraps a negative index, and scatter-add them at the targets).
  Two rectified layers follow, then the two unrectified heads over one shared aggregation of the second hidden array.
  The gathers and scatter-adds are the same host operations in both programs and are never opened here.
-/
import proofs.«150746_j69475390980563_1_alg».proof.Proof.Layer117
import proofs.«150746_j69475390980563_1_alg».proof.Proof.Layer42
import proofs.«150746_j69475390980563_1_alg».proof.Proof.Layer24
import Idealize.ShloMosaic.Lib.ValueLayout

noncomputable section

namespace Cert.Sage

open Idealize.ShloMosaic Idealize.ShloMosaic.ValueIdx Cert.ReferenceIdeal Cert.ReferenceIdeal.Gen

section Defs
variable {F : FTy → Type} [FloatOps F]

/-- The source node of every edge: row 0 of the edge list. -/
def srcOf (ei : IVec S2x800000 32) : IVec S800000 32 :=
  shapeCast _ (extractStridedSlice S1x800000 ![0, 0] ei slices_S2x800000_S1x800000_0_0) shapeCasts_S1x800000_S800000

/-- The target node of every edge: row 1 of the edge list. -/
def dstOf (ei : IVec S2x800000 32) : IVec S800000 32 :=
  shapeCast _ (extractStridedSlice S1x800000 ![1, 0] ei slices_S2x800000_S1x800000_1_0) shapeCasts_S1x800000_S800000

/-- The targets as the scatter's index column. -/
def dstIdx (ei : IVec S2x800000 32) : IVec S800000x1 32 :=
  broadcastInDim S800000x1 ![0] bcast_S800000_S800000x1_0 (dstOf ei)

/-- The sources as the gather's index column, a negative index wrapped by the node count. -/
def srcIdx (ei : IVec S2x800000 32) : IVec S800000x1 32 :=
  broadcastInDim S800000x1 ![0] bcast_S800000_S800000x1_0 (select (cmpi .slt (srcOf ei) (broadcastInDim S800000 ![] bcast_S_S800000 (constantI S_ 32 0#32))) (addi (srcOf ei) (broadcastInDim S800000 ![] bcast_S_S800000 (constantI S_ 32 50000#32))) (srcOf ei))

/-- The in-degree of every node: ones added at the targets. -/
def deg (ei : IVec S2x800000 32) : FVec F S50000x1 .f32 :=
  Host.scatterAdd scatter_S50000x1_S800000x1_S800000x1_1_0_0_1 (broadcastInDim S50000x1 ![] bcast_S_S50000x1 (constant S_ .f32 0x00000000#32)) (dstIdx ei) (broadcastInDim S800000x1 ![] bcast_S_S800000x1 (constant S_ .f32 0x3F800000#32))

/-- The neighbour sums of a 128-feature array. -/
def agg128 (ei : IVec S2x800000 32) (h : FVec F S50000x128 .f32) : FVec F S50000x128 .f32 :=
  Host.scatterAdd scatter_S50000x128_S800000x1_S800000x128_1_0_0_1 (broadcastInDim S50000x128 ![] bcast_S_S50000x128 (constant S_ .f32 0x00000000#32)) (dstIdx ei) (Host.gather gather_S50000x128_S800000x1_S800000x128_1_0_n_n_0_1_1128 h (srcIdx ei))

/-- The neighbour sums of a 117-feature array. -/
def agg117 (ei : IVec S2x800000 32) (h : FVec F S50000x117 .f32) : FVec F S50000x117 .f32 :=
  Host.scatterAdd scatter_S50000x117_S800000x1_S800000x117_1_0_0_1 (broadcastInDim S50000x117 ![] bcast_S_S50000x117 (constant S_ .f32 0x00000000#32)) (dstIdx ei) (Host.gather gather_S50000x117_S800000x1_S800000x117_1_0_n_n_0_1_1117 h (srcIdx ei))

/-- The neighbour sums of a 42-feature array. -/
def agg42 (ei : IVec S2x800000 32) (h : FVec F S50000x42 .f32) : FVec F S50000x42 .f32 :=
  Host.scatterAdd scatter_S50000x42_S800000x1_S800000x42_1_0_0_1 (broadcastInDim S50000x42 ![] bcast_S_S50000x42 (constant S_ .f32 0x00000000#32)) (dstIdx ei) (Host.gather gather_S50000x42_S800000x1_S800000x42_1_0_n_n_0_1_142 h (srcIdx ei))

/-- A bias vector as a one-row array. -/
def brow117 (b : FVec F S117 .f32) : FVec F S1x117 .f32 := broadcastInDim S1x117 ![1] bcast_S117_S1x117_1 b
def brow42 (b : FVec F S42 .f32) : FVec F S1x42 .f32 := broadcastInDim S1x42 ![1] bcast_S42_S1x42_1 b
def brow24 (b : FVec F S24 .f32) : FVec F S1x24 .f32 := broadcastInDim S1x24 ![1] bcast_S24_S1x24_1 b

/-- The first hidden array. -/
def hid1 (x : FVec F S50000x128 .f32) (ei : IVec S2x800000 32) (Wl1 Wr1 : FVec F S128x117 .f32) (b1 : FVec F S117 .f32) : FVec F S50000x117 .f32 :=
  out117 (agg128 ei x) (deg ei) x Wl1 Wr1 (brow117 b1)

/-- The second hidden array. -/
def hid2 (x : FVec F S50000x128 .f32) (ei : IVec S2x800000 32) (Wl1 Wr1 : FVec F S128x117 .f32) (b1 : FVec F S117 .f32)
    (Wl2 Wr2 : FVec F S117x42 .f32) (b2 : FVec F S42 .f32) : FVec F S50000x42 .f32 :=
  out42 (agg117 ei (hid1 x ei Wl1 Wr1 b1)) (deg ei) (hid1 x ei Wl1 Wr1 b1) Wl2 Wr2 (brow42 b2)

/-- A head: the unrectified layer over the second hidden array. -/
def head (x : FVec F S50000x128 .f32) (ei : IVec S2x800000 32) (Wl1 Wr1 : FVec F S128x117 .f32) (b1 : FVec F S117 .f32)
    (Wl2 Wr2 : FVec F S117x42 .f32) (b2 : FVec F S42 .f32) (Wl Wr : FVec F S42x24 .f32) (b : FVec F S24 .f32) : FVec F S50000x24 .f32 :=
  lin24 (agg42 ei (hid2 x ei Wl1 Wr1 b1 Wl2 Wr2 b2)) (deg ei) (hid2 x ei Wl1 Wr1 b1 Wl2 Wr2 b2) Wl Wr (brow24 b)

end Defs

/-! ## A bias vector reshaped to one row is the vector broadcast to one row -/

theorem brow117_eq {α : Type} (b : S117.Idx → α) (h : S117.ShapeCasts S1x117) :
    shapeCast S1x117 b h = broadcastInDim S1x117 ![1] bcast_S117_S1x117_1 b := by
  funext j
  obtain ⟨z, q, rfl⟩ : ∃ (z : Fin 1) (q : Fin 117), j = ix2 z q := ⟨j 0, j 1, eq_ix2 j⟩
  rw [shapeCast_a_1a_apply b h z q]
  exact (broadcastInDim_apply _ bcast_S117_S1x117_1 b (ix2 z q) (ix1 q) (fun a => match a with
    | ⟨0, _⟩ => by show q.val = if (117 : Nat) = 1 then 0 else q.val; rw [if_neg (by decide)])).symm

theorem brow42_eq {α : Type} (b : S42.Idx → α) (h : S42.ShapeCasts S1x42) :
    shapeCast S1x42 b h = broadcastInDim S1x42 ![1] bcast_S42_S1x42_1 b := by
  funext j
  obtain ⟨z, q, rfl⟩ : ∃ (z : Fin 1) (q : Fin 42), j = ix2 z q := ⟨j 0, j 1, eq_ix2 j⟩
  rw [shapeCast_a_1a_apply b h z q]
  exact (broadcastInDim_apply _ bcast_S42_S1x42_1 b (ix2 z q) (ix1 q) (fun a => match a with
    | ⟨0, _⟩ => by show q.val = if (42 : Nat) = 1 then 0 else q.val; rw [if_neg (by decide)])).symm

theorem brow24_eq {α : Type} (b : S24.Idx → α) (h : S24.ShapeCasts S1x24) :
    shapeCast S1x24 b h = broadcastInDim S1x24 ![1] bcast_S24_S1x24_1 b := by
  funext j
  obtain ⟨z, q, rfl⟩ : ∃ (z : Fin 1) (q : Fin 24), j = ix2 z q := ⟨j 0, j 1, eq_ix2 j⟩
  rw [shapeCast_a_1a_apply b h z q]
  exact (broadcastInDim_apply _ bcast_S24_S1x24_1 b (ix2 z q) (ix1 q) (fun a => match a with
    | ⟨0, _⟩ => by show q.val = if (24 : Nat) = 1 then 0 else q.val; rw [if_neg (by decide)])).symm

end Cert.Sage

end
-- ==== Proof.KernelValue.lean ====
/-
  The kernel's two results are the two heads of the network (`Cert.Sage.head`) at its arguments.

  The program's run is a fold over its segments: a stretch of host operations, a kernel, a stretch, a kernel, … The
  buffers' contents at each boundary are followed here one boundary at a time. A host stretch computes the edge
  sources and targets, the in-degrees, the neighbour sums of the current features and the bias as a row; a kernel
  writes its layer of what it is entered with (`Region….final`) and leaves every other buffer as it was. A buffer
  no segment writes (an argument, the in-degrees once made, the edge columns) is carried along unchanged.
-/
import proofs.«150746_j69475390980563_1_alg».proof.Proof.Gen.KernelIdeal.Frame
import proofs.«150746_j69475390980563_1_alg».proof.Proof.Region0
import proofs.«150746_j69475390980563_1_alg».proof.Proof.Region1
import proofs.«150746_j69475390980563_1_alg».proof.Proof.Region2
import proofs.«150746_j69475390980563_1_alg».proof.Proof.Region3
import proofs.«150746_j69475390980563_1_alg».proof.Proof.Net
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen Cert.Sage

variable (m : (ℓ : Loc nD τ sig) → Buf (Elt Ideal) ℓ) (ρ : Dev nD → PrngReg) (c : Dev nD)

/-! ## The arguments, by name -/

abbrev aX : FVec Ideal ReferenceIdeal.S50000x128 .f32 := m ((c : Thread nD τ).loc main_arg0)
abbrev aEi : IVec ReferenceIdeal.S2x800000 32 := m ((c : Thread nD τ).loc main_arg1)
abbrev aWl1 : FVec Ideal ReferenceIdeal.S128x117 .f32 := m ((c : Thread nD τ).loc main_arg2)
abbrev aWr1 : FVec Ideal ReferenceIdeal.S128x117 .f32 := m ((c : Thread nD τ).loc main_arg3)
abbrev aB1 : FVec Ideal ReferenceIdeal.S117 .f32 := m ((c : Thread nD τ).loc main_arg4)
abbrev aWl2 : FVec Ideal ReferenceIdeal.S117x42 .f32 := m ((c : Thread nD τ).loc main_arg5)
abbrev aWr2 : FVec Ideal ReferenceIdeal.S117x42 .f32 := m ((c : Thread nD τ).loc main_arg6)
abbrev aB2 : FVec Ideal ReferenceIdeal.S42 .f32 := m ((c : Thread nD τ).loc main_arg7)
abbrev aWl3 : FVec Ideal ReferenceIdeal.S42x24 .f32 := m ((c : Thread nD τ).loc main_arg8)
abbrev aWr3 : FVec Ideal ReferenceIdeal.S42x24 .f32 := m ((c : Thread nD τ).loc main_arg9)
abbrev aB3 : FVec Ideal ReferenceIdeal.S24 .f32 := m ((c : Thread nD τ).loc main_arg10)
abbrev aWl4 : FVec Ideal ReferenceIdeal.S42x24 .f32 := m ((c : Thread nD τ).loc main_arg11)
abbrev aWr4 : FVec Ideal ReferenceIdeal.S42x24 .f32 := m ((c : Thread nD τ).loc main_arg12)
abbrev aB4 : FVec Ideal ReferenceIdeal.S24 .f32 := m ((c : Thread nD τ).loc main_arg13)

/-- The first hidden array of these arguments. -/
abbrev aH1 : FVec Ideal ReferenceIdeal.S50000x117 .f32 := hid1 (aX m c) (aEi m c) (aWl1 m c) (aWr1 m c) (aB1 m c)
/-- The second hidden array of these arguments. -/
abbrev aH2 : FVec Ideal ReferenceIdeal.S50000x42 .f32 := hid2 (aX m c) (aEi m c) (aWl1 m c) (aWr1 m c) (aB1 m c) (aWl2 m c) (aWr2 m c) (aB2 m c)

/-! ## After the first stretch of host operations -/

theorem w1_src : W1 m ρ c (Proc.devRef .tc main_v1) = srcOf (aEi m c) := by
  show StableHlo.after hostOps0 (W0 m ρ c) (Proc.devRef .tc main_v1) = _
  after_results
  rfl
theorem w1_dst : W1 m ρ c (Proc.devRef .tc main_v3) = dstOf (aEi m c) := by
  show StableHlo.after hostOps0 (W0 m ρ c) (Proc.devRef .tc main_v3) = _
  after_results
  rfl
theorem w1_deg : W1 m ρ c (Proc.devRef .tc main_v7) = deg (F := Ideal) (aEi m c) := by
  show StableHlo.after hostOps0 (W0 m ρ c) (Proc.devRef .tc main_v7) = _
  after_results
  rfl
theorem w1_agg : W1 m ρ c (Proc.devRef .tc main_v17) = agg128 (aEi m c) (aX m c) := by
  show StableHlo.after hostOps0 (W0 m ρ c) (Proc.devRef .tc main_v17) = _
  after_results_simp
  rfl
theorem w1_b : W1 m ρ c (Proc.devRef .tc main_v18) = brow117 (aB1 m c) := by
  show StableHlo.after hostOps0 (W0 m ρ c) (Proc.devRef .tc main_v18) = _
  after_results
  have e : (fun i => shapeCast main_v18.ty.shape (W0 m ρ c (Proc.devRef .tc main_arg4)) shapeCasts_S117_S1x117 i) = brow117 (aB1 m c) := by
    show shapeCast ReferenceIdeal.S1x117 (aB1 m c) _ = _
    exact brow117_eq (aB1 m c) _
  exact e
theorem w1_x : W1 m ρ c (Proc.devRef .tc main_arg0) = aX m c := by
  show StableHlo.after hostOps0 (W0 m ρ c) (Proc.devRef .tc main_arg0) = _
  after_results
theorem w1_wl : W1 m ρ c (Proc.devRef .tc main_arg2) = aWl1 m c := by
  show StableHlo.after hostOps0 (W0 m ρ c) (Proc.devRef .tc main_arg2) = _
  after_results
theorem w1_wr : W1 m ρ c (Proc.devRef .tc main_arg3) = aWr1 m c := by
  show StableHlo.after hostOps0 (W0 m ρ c) (Proc.devRef .tc main_arg3) = _
  after_results
/-- A buffer the first stretch does not write is as launched. -/
theorem w1_arg5 : W1 m ρ c (Proc.devRef .tc main_arg5) = aWl2 m c := by
  show StableHlo.after hostOps0 (W0 m ρ c) (Proc.devRef .tc main_arg5) = _
  after_results
theorem w1_arg6 : W1 m ρ c (Proc.devRef .tc main_arg6) = aWr2 m c := by
  show StableHlo.after hostOps0 (W0 m ρ c) (Proc.devRef .tc main_arg6) = _
  after_results
theorem w1_arg7 : W1 m ρ c (Proc.devRef .tc main_arg7) = aB2 m c := by
  show StableHlo.after hostOps0 (W0 m ρ c) (Proc.devRef .tc main_arg7) = _
  after_results
theorem w1_arg8 : W1 m ρ c (Proc.devRef .tc main_arg8) = aWl3 m c := by
  show StableHlo.after hostOps0 (W0 m ρ c) (Proc.devRef .tc main_arg8) = _
  after_results
theorem w1_arg9 : W1 m ρ c (Proc.devRef .tc main_arg9) = aWr3 m c := by
  show StableHlo.after hostOps0 (W0 m ρ c) (Proc.devRef .tc main_arg9) = _
  after_results
theorem w1_arg10 : W1 m ρ c (Proc.devRef .tc main_arg10) = aB3 m c := by
  show StableHlo.after hostOps0 (W0 m ρ c) (Proc.devRef .tc main_arg10) = _
  after_results
theorem w1_arg11 : W1 m ρ c (Proc.devRef .tc main_arg11) = aWl4 m c := by
  show StableHlo.after hostOps0 (W0 m ρ c) (Proc.devRef .tc main_arg11) = _
  after_results
theorem w1_arg12 : W1 m ρ c (Proc.devRef .tc main_arg12) = aWr4 m c := by
  show StableHlo.after hostOps0 (W0 m ρ c) (Proc.devRef .tc main_arg12) = _
  after_results
theorem w1_arg13 : W1 m ρ c (Proc.devRef .tc main_arg13) = aB4 m c := by
  show StableHlo.after hostOps0 (W0 m ρ c) (Proc.devRef .tc main_arg13) = _
  after_results

/-! ## After the first kernel -/

theorem w2_h1 : W2 m ρ c (Proc.devRef .tc main_v19) = aH1 m c := by
  refine (W2_arr m ρ c 6).trans ((Region0.final (V1 m ρ) c).trans ?_)
  show out117 (F := Ideal) (W1 m ρ c (Proc.devRef .tc main_v17)) (W1 m ρ c (Proc.devRef .tc main_v7)) (W1 m ρ c (Proc.devRef .tc main_arg0)) (W1 m ρ c (Proc.devRef .tc main_arg2)) (W1 m ρ c (Proc.devRef .tc main_arg3)) (W1 m ρ c (Proc.devRef .tc main_v18)) = _
  rw [w1_agg, w1_deg, w1_x, w1_wl, w1_wr, w1_b]
  rfl
theorem w2_src : W2 m ρ c (Proc.devRef .tc main_v1) = srcOf (aEi m c) :=
  (W2_of_ne m ρ c main_v1 (by decide)).trans (w1_src m ρ c)
theorem w2_dst : W2 m ρ c (Proc.devRef .tc main_v3) = dstOf (aEi m c) :=
  (W2_of_ne m ρ c main_v3 (by decide)).trans (w1_dst m ρ c)
theorem w2_deg : W2 m ρ c (Proc.devRef .tc main_v7) = deg (F := Ideal) (aEi m c) :=
  (W2_arr m ρ c 1).trans ((((dat0 (V1 m ρ) c).arrAt_in 1 rfl _).trans (A_eq0 (V1 m ρ) c 1)).trans (w1_deg m ρ c))
theorem w2_arg5 : W2 m ρ c (Proc.devRef .tc main_arg5) = aWl2 m c := (W2_of_ne m ρ c main_arg5 (by decide)).trans (w1_arg5 m ρ c)
theorem w2_arg6 : W2 m ρ c (Proc.devRef .tc main_arg6) = aWr2 m c := (W2_of_ne m ρ c main_arg6 (by decide)).trans (w1_arg6 m ρ c)
theorem w2_arg7 : W2 m ρ c (Proc.devRef .tc main_arg7) = aB2 m c := (W2_of_ne m ρ c main_arg7 (by decide)).trans (w1_arg7 m ρ c)
theorem w2_arg8 : W2 m ρ c (Proc.devRef .tc main_arg8) = aWl3 m c := (W2_of_ne m ρ c main_arg8 (by decide)).trans (w1_arg8 m ρ c)
theorem w2_arg9 : W2 m ρ c (Proc.devRef .tc main_arg9) = aWr3 m c := (W2_of_ne m ρ c main_arg9 (by decide)).trans (w1_arg9 m ρ c)
theorem w2_arg10 : W2 m ρ c (Proc.devRef .tc main_arg10) = aB3 m c := (W2_of_ne m ρ c main_arg10 (by decide)).trans (w1_arg10 m ρ c)
theorem w2_arg11 : W2 m ρ c (Proc.devRef .tc main_arg11) = aWl4 m c := (W2_of_ne m ρ c main_arg11 (by decide)).trans (w1_arg11 m ρ c)
theorem w2_arg12 : W2 m ρ c (Proc.devRef .tc main_arg12) = aWr4 m c := (W2_of_ne m ρ c main_arg12 (by decide)).trans (w1_arg12 m ρ c)
theorem w2_arg13 : W2 m ρ c (Proc.devRef .tc main_arg13) = aB4 m c := (W2_of_ne m ρ c main_arg13 (by decide)).trans (w1_arg13 m ρ c)

/-! ## After the second stretch of host operations -/

theorem w3_src : W3 m ρ c (Proc.devRef .tc main_v1) = srcOf (aEi m c) := by
  show StableHlo.after hostOps1 (W2 m ρ c) (Proc.devRef .tc main_v1) = _
  after_results
  exact w2_src m ρ c
theorem w3_dst : W3 m ρ c (Proc.devRef .tc main_v3) = dstOf (aEi m c) := by
  show StableHlo.after hostOps1 (W2 m ρ c) (Proc.devRef .tc main_v3) = _
  after_results
  exact w2_dst m ρ c
theorem w3_deg : W3 m ρ c (Proc.devRef .tc main_v7) = deg (F := Ideal) (aEi m c) := by
  show StableHlo.after hostOps1 (W2 m ρ c) (Proc.devRef .tc main_v7) = _
  after_results
  exact w2_deg m ρ c
theorem w3_h1 : W3 m ρ c (Proc.devRef .tc main_v19) = aH1 m c := by
  show StableHlo.after hostOps1 (W2 m ρ c) (Proc.devRef .tc main_v19) = _
  after_results
  exact w2_h1 m ρ c
theorem w3_agg : W3 m ρ c (Proc.devRef .tc main_v29) = agg117 (aEi m c) (aH1 m c) := by
  show StableHlo.after hostOps1 (W2 m ρ c) (Proc.devRef .tc main_v29) = _
  after_results_simp
  rw [w2_src, w2_dst, w2_h1]
  rfl
theorem w3_b : W3 m ρ c (Proc.devRef .tc main_v30) = brow42 (aB2 m c) := by
  show StableHlo.after hostOps1 (W2 m ρ c) (Proc.devRef .tc main_v30) = _
  after_results
  have e : (fun i => shapeCast main_v30.ty.shape (W2 m ρ c (Proc.devRef .tc main_arg7)) shapeCasts_S42_S1x42 i) = brow42 (aB2 m c) := by
    rw [w2_arg7]
    show shapeCast ReferenceIdeal.S1x42 (aB2 m c) _ = _
    exact brow42_eq (aB2 m c) _
  exact e
theorem w3_arg5 : W3 m ρ c (Proc.devRef .tc main_arg5) = aWl2 m c := by
  show StableHlo.after hostOps1 (W2 m ρ c) (Proc.devRef .tc main_arg5) = _
  after_results
  exact w2_arg5 m ρ c
theorem w3_arg6 : W3 m ρ c (Proc.devRef .tc main_arg6) = aWr2 m c := by
  show StableHlo.after hostOps1 (W2 m ρ c) (Proc.devRef .tc main_arg6) = _
  after_results
  exact w2_arg6 m ρ c
theorem w3_arg8 : W3 m ρ c (Proc.devRef .tc main_arg8) = aWl3 m c := by
  show StableHlo.after hostOps1 (W2 m ρ c) (Proc.devRef .tc main_arg8) = _
  after_results
  exact w2_arg8 m ρ c
theorem w3_arg9 : W3 m ρ c (Proc.devRef .tc main_arg9) = aWr3 m c := by
  show StableHlo.after hostOps1 (W2 m ρ c) (Proc.devRef .tc main_arg9) = _
  after_results
  exact w2_arg9 m ρ c
theorem w3_arg10 : W3 m ρ c (Proc.devRef .tc main_arg10) = aB3 m c := by
  show StableHlo.after hostOps1 (W2 m ρ c) (Proc.devRef .tc main_arg10) = _
  after_results
  exact w2_arg10 m ρ c
theorem w3_arg11 : W3 m ρ c (Proc.devRef .tc main_arg11) = aWl4 m c := by
  show StableHlo.after hostOps1 (W2 m ρ c) (Proc.devRef .tc main_arg11) = _
  after_results
  exact w2_arg11 m ρ c
theorem w3_arg12 : W3 m ρ c (Proc.devRef .tc main_arg12) = aWr4 m c := by
  show StableHlo.after hostOps1 (W2 m ρ c) (Proc.devRef .tc main_arg12) = _
  after_results
  exact w2_arg12 m ρ c
theorem w3_arg13 : W3 m ρ c (Proc.devRef .tc main_arg13) = aB4 m c := by
  show StableHlo.after hostOps1 (W2 m ρ c) (Proc.devRef .tc main_arg13) = _
  after_results
  exact w2_arg13 m ρ c

/-! ## After the second kernel -/

theorem w4_h2 : W4 m ρ c (Proc.devRef .tc main_v31) = aH2 m c := by
  refine (W4_arr m ρ c 6).trans ((Region1.final (V3 m ρ) c).trans ?_)
  show out42 (F := Ideal) (W3 m ρ c (Proc.devRef .tc main_v29)) (W3 m ρ c (Proc.devRef .tc main_v7)) (W3 m ρ c (Proc.devRef .tc main_v19)) (W3 m ρ c (Proc.devRef .tc main_arg5)) (W3 m ρ c (Proc.devRef .tc main_arg6)) (W3 m ρ c (Proc.devRef .tc main_v30)) = _
  rw [w3_agg, w3_deg, w3_h1, w3_arg5, w3_arg6, w3_b]
  rfl
theorem w4_src : W4 m ρ c (Proc.devRef .tc main_v1) = srcOf (aEi m c) :=
  (W4_of_ne m ρ c main_v1 (by decide)).trans (w3_src m ρ c)
theorem w4_dst : W4 m ρ c (Proc.devRef .tc main_v3) = dstOf (aEi m c) :=
  (W4_of_ne m ρ c main_v3 (by decide)).trans (w3_dst m ρ c)
theorem w4_deg : W4 m ρ c (Proc.devRef .tc main_v7) = deg (F := Ideal) (aEi m c) :=
  (W4_arr m ρ c 1).trans ((((dat1 (V3 m ρ) c).arrAt_in 1 rfl _).trans (A_eq1 (V3 m ρ) c 1)).trans (w3_deg m ρ c))
theorem w4_arg8 : W4 m ρ c (Proc.devRef .tc main_arg8) = aWl3 m c := (W4_of_ne m ρ c main_arg8 (by decide)).trans (w3_arg8 m ρ c)
theorem w4_arg9 : W4 m ρ c (Proc.devRef .tc main_arg9) = aWr3 m c := (W4_of_ne m ρ c main_arg9 (by decide)).trans (w3_arg9 m ρ c)
theorem w4_arg10 : W4 m ρ c (Proc.devRef .tc main_arg10) = aB3 m c := (W4_of_ne m ρ c main_arg10 (by decide)).trans (w3_arg10 m ρ c)
theorem w4_arg11 : W4 m ρ c (Proc.devRef .tc main_arg11) = aWl4 m c := (W4_of_ne m ρ c main_arg11 (by decide)).trans (w3_arg11 m ρ c)
theorem w4_arg12 : W4 m ρ c (Proc.devRef .tc main_arg12) = aWr4 m c := (W4_of_ne m ρ c main_arg12 (by decide)).trans (w3_arg12 m ρ c)
theorem w4_arg13 : W4 m ρ c (Proc.devRef .tc main_arg13) = aB4 m c := (W4_of_ne m ρ c main_arg13 (by decide)).trans (w3_arg13 m ρ c)

/-! ## After the third stretch of host operations -/

theorem w5_deg : W5 m ρ c (Proc.devRef .tc main_v7) = deg (F := Ideal) (aEi m c) := by
  show StableHlo.after hostOps2 (W4 m ρ c) (Proc.devRef .tc main_v7) = _
  after_results
  exact w4_deg m ρ c
theorem w5_h2 : W5 m ρ c (Proc.devRef .tc main_v31) = aH2 m c := by
  show StableHlo.after hostOps2 (W4 m ρ c) (Proc.devRef .tc main_v31) = _
  after_results
  exact w4_h2 m ρ c
theorem w5_agg : W5 m ρ c (Proc.devRef .tc main_v41) = agg42 (aEi m c) (aH2 m c) := by
  show StableHlo.after hostOps2 (W4 m ρ c) (Proc.devRef .tc main_v41) = _
  after_results_simp
  rw [w4_src, w4_dst, w4_h2]
  rfl
theorem w5_b : W5 m ρ c (Proc.devRef .tc main_v42) = brow24 (aB3 m c) := by
  show StableHlo.after hostOps2 (W4 m ρ c) (Proc.devRef .tc main_v42) = _
  after_results
  have e : (fun i => shapeCast main_v42.ty.shape (W4 m ρ c (Proc.devRef .tc main_arg10)) shapeCasts_S24_S1x24 i) = brow24 (aB3 m c) := by
    rw [w4_arg10]
    show shapeCast ReferenceIdeal.S1x24 (aB3 m c) _ = _
    exact brow24_eq (aB3 m c) _
  exact e
theorem w5_arg8 : W5 m ρ c (Proc.devRef .tc main_arg8) = aWl3 m c := by
  show StableHlo.after hostOps2 (W4 m ρ c) (Proc.devRef .tc main_arg8) = _
  after_results
  exact w4_arg8 m ρ c
theorem w5_arg9 : W5 m ρ c (Proc.devRef .tc main_arg9) = aWr3 m c := by
  show StableHlo.after hostOps2 (W4 m ρ c) (Proc.devRef .tc main_arg9) = _
  after_results
  exact w4_arg9 m ρ c
theorem w5_arg11 : W5 m ρ c (Proc.devRef .tc main_arg11) = aWl4 m c := by
  show StableHlo.after hostOps2 (W4 m ρ c) (Proc.devRef .tc main_arg11) = _
  after_results
  exact w4_arg11 m ρ c
theorem w5_arg12 : W5 m ρ c (Proc.devRef .tc main_arg12) = aWr4 m c := by
  show StableHlo.after hostOps2 (W4 m ρ c) (Proc.devRef .tc main_arg12) = _
  after_results
  exact w4_arg12 m ρ c
theorem w5_arg13 : W5 m ρ c (Proc.devRef .tc main_arg13) = aB4 m c := by
  show StableHlo.after hostOps2 (W4 m ρ c) (Proc.devRef .tc main_arg13) = _
  after_results
  exact w4_arg13 m ρ c

/-! ## After the third kernel: the mean head is written -/

theorem w6_mu : W6 m ρ c (Proc.devRef .tc main_v43)
    = head (aX m c) (aEi m c) (aWl1 m c) (aWr1 m c) (aB1 m c) (aWl2 m c) (aWr2 m c) (aB2 m c) (aWl3 m c) (aWr3 m c) (aB3 m c) := by
  refine (W6_arr m ρ c 6).trans ((Region2.final (V5 m ρ) c).trans ?_)
  show lin24 (F := Ideal) (W5 m ρ c (Proc.devRef .tc main_v41)) (W5 m ρ c (Proc.devRef .tc main_v7)) (W5 m ρ c (Proc.devRef .tc main_v31)) (W5 m ρ c (Proc.devRef .tc main_arg8)) (W5 m ρ c (Proc.devRef .tc main_arg9)) (W5 m ρ c (Proc.devRef .tc main_v42)) = _
  rw [w5_agg, w5_deg, w5_h2, w5_arg8, w5_arg9, w5_b]
  rfl
theorem w6_agg : W6 m ρ c (Proc.devRef .tc main_v41) = agg42 (aEi m c) (aH2 m c) :=
  (W6_arr m ρ c 0).trans ((((dat2 (V5 m ρ) c).arrAt_in 0 rfl _).trans (A_eq2 (V5 m ρ) c 0)).trans (w5_agg m ρ c))
theorem w6_deg : W6 m ρ c (Proc.devRef .tc main_v7) = deg (F := Ideal) (aEi m c) :=
  (W6_arr m ρ c 1).trans ((((dat2 (V5 m ρ) c).arrAt_in 1 rfl _).trans (A_eq2 (V5 m ρ) c 1)).trans (w5_deg m ρ c))
theorem w6_h2 : W6 m ρ c (Proc.devRef .tc main_v31) = aH2 m c :=
  (W6_arr m ρ c 2).trans ((((dat2 (V5 m ρ) c).arrAt_in 2 rfl _).trans (A_eq2 (V5 m ρ) c 2)).trans (w5_h2 m ρ c))
theorem w6_arg11 : W6 m ρ c (Proc.devRef .tc main_arg11) = aWl4 m c := (W6_of_ne m ρ c main_arg11 (by decide)).trans (w5_arg11 m ρ c)
theorem w6_arg12 : W6 m ρ c (Proc.devRef .tc main_arg12) = aWr4 m c := (W6_of_ne m ρ c main_arg12 (by decide)).trans (w5_arg12 m ρ c)
theorem w6_arg13 : W6 m ρ c (Proc.devRef .tc main_arg13) = aB4 m c := (W6_of_ne m ρ c main_arg13 (by decide)).trans (w5_arg13 m ρ c)

/-! ## After the last host operation -/

theorem w7_mu : W7 m ρ c (Proc.devRef .tc main_v43)
    = head (aX m c) (aEi m c) (aWl1 m c) (aWr1 m c) (aB1 m c) (aWl2 m c) (aWr2 m c) (aB2 m c) (aWl3 m c) (aWr3 m c) (aB3 m c) := by
  show StableHlo.after hostOps3 (W6 m ρ c) (Proc.devRef .tc main_v43) = _
  after_results
  exact w6_mu m ρ c
theorem w7_agg : W7 m ρ c (Proc.devRef .tc main_v41) = agg42 (aEi m c) (aH2 m c) := by
  show StableHlo.after hostOps3 (W6 m ρ c) (Proc.devRef .tc main_v41) = _
  after_results
  exact w6_agg m ρ c
theorem w7_deg : W7 m ρ c (Proc.devRef .tc main_v7) = deg (F := Ideal) (aEi m c) := by
  show StableHlo.after hostOps3 (W6 m ρ c) (Proc.devRef .tc main_v7) = _
  after_results
  exact w6_deg m ρ c
theorem w7_h2 : W7 m ρ c (Proc.devRef .tc main_v31) = aH2 m c := by
  show StableHlo.after hostOps3 (W6 m ρ c) (Proc.devRef .tc main_v31) = _
  after_results
  exact w6_h2 m ρ c
theorem w7_b : W7 m ρ c (Proc.devRef .tc main_v44) = brow24 (aB4 m c) := by
  show StableHlo.after hostOps3 (W6 m ρ c) (Proc.devRef .tc main_v44) = _
  after_results
  have e : (fun i => shapeCast main_v44.ty.shape (W6 m ρ c (Proc.devRef .tc main_arg13)) shapeCasts_S24_S1x24 i) = brow24 (aB4 m c) := by
    rw [w6_arg13]
    show shapeCast ReferenceIdeal.S1x24 (aB4 m c) _ = _
    exact brow24_eq (aB4 m c) _
  exact e
theorem w7_arg11 : W7 m ρ c (Proc.devRef .tc main_arg11) = aWl4 m c := by
  show StableHlo.after hostOps3 (W6 m ρ c) (Proc.devRef .tc main_arg11) = _
  after_results
  exact w6_arg11 m ρ c
theorem w7_arg12 : W7 m ρ c (Proc.devRef .tc main_arg12) = aWr4 m c := by
  show StableHlo.after hostOps3 (W6 m ρ c) (Proc.devRef .tc main_arg12) = _
  after_results
  exact w6_arg12 m ρ c

/-! ## After the fourth kernel: the two results -/

/-- The mean head, left as the third kernel wrote it. -/
theorem w8_mu : W8 m ρ c (Proc.devRef .tc main_v43)
    = head (aX m c) (aEi m c) (aWl1 m c) (aWr1 m c) (aB1 m c) (aWl2 m c) (aWr2 m c) (aB2 m c) (aWl3 m c) (aWr3 m c) (aB3 m c) :=
  (W8_of_ne m ρ c main_v43 (by decide)).trans (w7_mu m ρ c)

/-- The log-variance head. -/
theorem w8_lv : W8 m ρ c (Proc.devRef .tc main_v45)
    = head (aX m c) (aEi m c) (aWl1 m c) (aWr1 m c) (aB1 m c) (aWl2 m c) (aWr2 m c) (aB2 m c) (aWl4 m c) (aWr4 m c) (aB4 m c) := by
  refine (W8_arr m ρ c 6).trans ((Region3.final (V7 m ρ) c).trans ?_)
  show lin24 (F := Ideal) (W7 m ρ c (Proc.devRef .tc main_v41)) (W7 m ρ c (Proc.devRef .tc main_v7)) (W7 m ρ c (Proc.devRef .tc main_v31)) (W7 m ρ c (Proc.devRef .tc main_arg11)) (W7 m ρ c (Proc.devRef .tc main_arg12)) (W7 m ρ c (Proc.devRef .tc main_v44)) = _
  rw [w7_agg, w7_deg, w7_h2, w7_arg11, w7_arg12, w7_b]
  rfl

end Cert.KernelIdeal.Fold

end
-- ==== Proof.RefValue.lean ====
/-
  The reference's two results are the two heads of the network (`Cert.Sage.head`) at its arguments: the run's composed
  terms are, operation for operation, the definitions of `head`, `hid2`, `hid1` and of the layers unfolded.
-/
import proofs.«150746_j69475390980563_1_alg».proof.Proof.Gen.ReferenceIdeal.Run
import proofs.«150746_j69475390980563_1_alg».proof.Proof.Net

set_option maxRecDepth 16384

noncomputable section

namespace Cert.Sage.Ref

open Idealize.ShloMosaic Idealize.ShloMosaic.TcCoe Idealize.SL.Sem
open Cert.ReferenceIdeal Cert.ReferenceIdeal.Gen Cert.ReferenceIdeal.Value Cert.Sage

variable (m : (ℓ : Loc nD τ sig) → Buf (Elt Ideal) ℓ) (c : Dev nD)

/-- The mean head. -/
theorem res_mu : res_main_v77 (F := Ideal) m c
    = head (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) := by
  unfold res_main_v77 head hid2 hid1 lin24 out42 out117 lin42 lin117 agg42 agg117 agg128 deg srcIdx dstIdx srcOf dstOf brow117 brow42 brow24
  rfl

/-- The log-variance head. -/
theorem res_lv : res_main_v101 (F := Ideal) m c
    = head (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg11)) (m ((c.tc : Thread nD τ).loc main_arg12)) (m ((c.tc : Thread nD τ).loc main_arg13)) := by
  unfold res_main_v101 head hid2 hid1 lin24 out42 out117 lin42 lin117 agg42 agg117 agg128 deg srcIdx dstIdx srcOf dstOf brow117 brow42 brow24
  rfl

end Cert.Sage.Ref

end
-- ==== Proof.lean ====
/-
  The certificate: a four-kernel mean-aggregating graph encoder against its whole-array reference, equal over the
  extended reals.

  Both programs compute, from node features, an edge list and four sets of weights, two rectified layers and two
  unrectified heads of the same form: the neighbour sums of the current features (gathered at the edge sources,
  added at the edge targets) divided by the in-degree clipped below at one, times the neighbour weights, plus the
  features times the self weights, plus the bias. The kernel's program leaves the gathers and scatter-adds to the
  host exactly as the reference writes them and computes each layer in a kernel over ten blocks of 5000 nodes;
  the reference computes each layer on all 50000 nodes at once. A block of a layer depends on the same rows of its
  operands only, so block by block the kernel writes the reference's layer (Region0 … Region3), and the buffers'
  contents, followed through the run's segments, end at the two heads of one function of the arguments
  (KernelValue); the reference's run ends at the same function of its arguments (RefValue). No law of the
  extended reals beyond the identity of the two sums' terms is used, so finiteness of the inputs is never opened.
-/
import proofs.«150746_j69475390980563_1_alg».proof.Defs
import proofs.«150746_j69475390980563_1_alg».proof.Proof.Gen.Kernel
import proofs.«150746_j69475390980563_1_alg».proof.Proof.Gen.Kernel.Skeleton
import proofs.«150746_j69475390980563_1_alg».proof.Proof.Gen.Kernel.Launch
import proofs.«150746_j69475390980563_1_alg».proof.Proof.Gen.Kernel.Points
import proofs.«150746_j69475390980563_1_alg».proof.Proof.Gen.Kernel.Frame
import proofs.«150746_j69475390980563_1_alg».proof.Proof.Gen.KernelIdeal
import proofs.«150746_j69475390980563_1_alg».proof.Proof.Gen.KernelIdeal.Skeleton
import proofs.«150746_j69475390980563_1_alg».proof.Proof.Gen.KernelIdeal.Launch
import proofs.«150746_j69475390980563_1_alg».proof.Proof.Gen.KernelIdeal.Points
import proofs.«150746_j69475390980563_1_alg».proof.Proof.Gen.KernelIdeal.Frame
import proofs.«150746_j69475390980563_1_alg».proof.Proof.Gen.ReferenceIdeal
import proofs.«150746_j69475390980563_1_alg».proof.Proof.Gen.Pre_finite_inputs
import proofs.«150746_j69475390980563_1_alg».proof.Proof.Gen.ReferenceIdeal.Run
import proofs.«150746_j69475390980563_1_alg».proof.Proof.KernelRun
import proofs.«150746_j69475390980563_1_alg».proof.Proof.KernelValue
import proofs.«150746_j69475390980563_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-! ## The kernel's run with its results named -/

section KernelRun

open Cert.KernelIdeal Cert.KernelIdeal.Gen Cert.KernelIdeal.Fold Cert.Sage

/-- Every weakly fair execution of the kernel's program ends with the two result arrays at the two heads of the
    network of its arguments, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43)
        = head (aX m c) (aEi m c) (aWl1 m c) (aWr1 m c) (aB1 m c) (aWl2 m c) (aWr2 m c) (aB2 m c) (aWl3 m c) (aWr3 m c) (aB3 m c)
      ∧ r.2.mem ((c.tc : Thread nD τ).loc main_v45)
        = head (aX m c) (aEi m c) (aWl1 m c) (aWr1 m c) (aB1 m c) (aWl2 m c) (aWr2 m c) (aB2 m c) (aWl4 m c) (aWr4 m c) (aB4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun s h c =>
    ⟨(h c _ (mem_uc main_v43 (by decide))).trans (w8_mu m ρ c),
     (h c _ (mem_uc main_v45 (by decide))).trans (w8_lv m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c)⟩)
    (Cert.KernelIdeal.Run.run_all m ρ)

end KernelRun

/-! ## The claims -/

/-- The ideal pass rewrote nothing: its ledger is empty. -/
theorem preserves : Cert.preserves_Kernel_KernelIdeal := trivial

/-- Both runs end at the two heads of one function of arguments that agree. -/
theorem algebraic : Cert.algebraic_KernelIdeal_ReferenceIdeal := by
  intro m g m' g' _ hagree
  refine ⟨_, _, kernel_run m g, ?_⟩
  refine (θ_run Cert.ReferenceIdeal.defs _ _).mono (fun _ h c => ⟨(h c).1.trans ?_, (h c).2.1.trans ?_, (h c).2.2⟩)
    (Cert.ReferenceIdeal.Value.run (F := Ideal) m' g')
  · obtain ⟨e0, e1, e2, e3, e4, e5, e6, e7, e8, e9, e10, e11, e12, e13⟩ := hagree c
    rw [Cert.Sage.Ref.res_mu m' c, e0, e1, e2, e3, e4, e5, e6, e7, e8, e9, e10]
  · obtain ⟨e0, e1, e2, e3, e4, e5, e6, e7, e8, e9, e10, e11, e12, e13⟩ := hagree c
    rw [Cert.Sage.Ref.res_lv m' c, e0, e1, e2, e3, e4, e5, e6, e7, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
